-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192x1 : Shape := ⟨3, ![256, 8192, 1]⟩
abbrev S256 : Shape := ⟨1, ![256]⟩
abbrev S256x8192 : Shape := ⟨2, ![256, 8192]⟩
abbrev S_ : Shape := ⟨0, ![]⟩

class Facts : Prop where
  bcast_S_S256x8192x1 : S_.BroadcastsInDim S256x8192x1 (![] : Fin 0 → Fin S256x8192x1.rank)
  reducesTo_S256x8192x1_S_d0_1_2 : S256x8192x1.ReducesTo [0, 1, 2] S_
  h_S_ : 0 < S_.numel
  bcast_S_S256x8192 : S_.BroadcastsInDim S256x8192 (![] : Fin 0 → Fin S256x8192.rank)
  reducesTo_S256x8192_S_d0_1 : S256x8192.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg4 : FVec F S256x8192x1 .f32) (main_v30 : IVec S_ 1) (main_v32 : IVec S256 1) : IVec S_ 1 :=
  let main_c_13 : IVec S_ 1 := constantI S_ 1 1#1
  let main_v33 : IVec S_ 1 := (fun x v => Host.reduce IntOp.andi x v reducesTo_S256_S_d0 h_S_) main_v32 main_c_13
  let main_v34 : IVec S_ 1 := andi main_v30 main_v33
  let main_cst_14 : FVec F S_ .f32 := constant S_ .f32 0x00000000#32
  let main_v35 : FVec F S256x8192x1 .f32 := broadcastInDim S256x8192x1 ![] bcast_S_S256x8192x1 main_cst_14
  let main_v36 : IVec S256x8192x1 1 := cmpf .ogt main_arg4 main_v35
  let main_c_15 : IVec S_ 1 := constantI S_ 1 1#1
  let main_v37 : IVec S_ 1 := (fun x v => Host.reduce IntOp.andi x v reducesTo_S256x8192x1_S_d0_1_2 h_S_) main_v36 main_c_15
  let main_v38 : IVec S_ 1 := andi main_v34 main_v37
  let main_cst_16 : FVec F S_ .f32 := constant S_ .f32 0x3F800000#32
  let main_v39 : FVec F S256x8192x1 .f32 := broadcastInDim S256x8192x1 ![] bcast_S_S256x8192x1 main_cst_16
  let main_v40 : IVec S256x8192x1 1 := cmpf .olt main_arg4 main_v39
  let main_c_17 : IVec S_ 1 := constantI S_ 1 1#1
  let main_v41 : IVec S_ 1 := (fun x v => Host.reduce IntOp.andi x v reducesTo_S256x8192x1_S_d0_1_2 h_S_) main_v40 main_c_17
  let main_v42 : IVec S_ 1 := andi main_v38 main_v41
  main_v42

def fn_part1 {F : FTy → Type} [FloatOps F] (main_arg2 : IVec S256 32) (main_arg3 : IVec S256 32) (main_arg4 : FVec F S256x8192x1 .f32) (main_v13 : IVec S_ 1) (main_v16 : IVec S256x8192 1) : IVec S_ 1 :=
  let main_c_5 : IVec S_ 1 := constantI S_ 1 1#1
  let main_v17 : IVec S_ 1 := (fun x v => Host.reduce IntOp.andi x v reducesTo_S256x8192_S_d0_1 h_S_) main_v16 main_c_5
  let main_v18 : IVec S_ 1 := andi main_v13 main_v17
  let main_c_6 : IVec S_ 32 := constantI S_ 32 0#32
  let main_v19 : IVec S256 32 := broadcastInDim S256 ![] bcast_S_S256 main_c_6
  let main_v20 : IVec S256 1 := cmpi .sge main_arg2 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v18 main_v21
  let main_c_8 : IVec S_ 32 := constantI S_ 32 8192#32
  let main_v23 : IVec S256 32 := broadcastInDim S256 ![] bcast_S_S256 main_c_8
  let main_v24 : IVec S256 1 := cmpi .slt main_arg2 main_v23
  let main_c_9 : IVec S_ 1 := constantI S_ 1 1#1
  let main_v25 : IVec S_ 1 := (fun x v => Host.reduce IntOp.andi x v reducesTo_S256_S_d0 h_S_) main_v24 main_c_9
  let main_v26 : IVec S_ 1 := andi main_v22 main_v25
  let main_c_10 : IVec S_ 32 := constantI S_ 32 0#32
  let main_v27 : IVec S256 32 := broadcastInDim S256 ![] bcast_S_S256 main_c_10
  let main_v28 : IVec S256 1 := cmpi .sge main_arg3 main_v27
  let main_c_11 : IVec S_ 1 := constantI S_ 1 1#1
  let main_v29 : IVec S_ 1 := (fun x v => Host.reduce IntOp.andi x v reducesTo_S256_S_d0 h_S_) main_v28 main_c_11
  let main_v30 : IVec S_ 1 := andi main_v26 main_v29
  let main_c_12 : IVec S_ 32 := constantI S_ 32 8192#32
  let main_v31 : IVec S256 32 := broadcastInDim S256 ![] bcast_S_S256 main_c_12
  let main_v32 : IVec S256 1 := cmpi .slt main_arg3 main_v31
  fn_part2 (F := F) main_arg4 main_v30 main_v32

def fn {F : FTy → Type} [FloatOps F] (main_arg0 : FVec F S256x8192x1 .f32) (main_arg1 : FVec F S256x8192x1 .f32) (main_arg2 : IVec S256 32) (main_arg3 : IVec S256 32) (main_arg4 : FVec F S256x8192x1 .f32) (main_arg5 : FVec F S256x8192 .f32) : IVec S_ 1 :=
  let main_v0 : FVec F S256x8192x1 .f32 := Host.absf main_arg0
  let main_cst : FVec F S_ .f32 := constant S_ .f32 0x7F800000#32
  let main_v1 : FVec F S256x8192x1 .f32 := broadcastInDim S256x8192x1 ![] bcast_S_S256x8192x1 main_cst
  let main_v2 : IVec S256x8192x1 1 := cmpf .olt main_v0 main_v1
  let main_c : IVec S_ 1 := constantI S_ 1 1#1
  let main_v3 : IVec S_ 1 := (fun x v => Host.reduce IntOp.andi x v reducesTo_S256x8192x1_S_d0_1_2 h_S_) main_v2 main_c
  let main_v4 : FVec F S256x8192x1 .f32 := Host.absf main_arg1
  let main_cst_0 : FVec F S_ .f32 := constant S_ .f32 0x7F800000#32
  let main_v5 : FVec F S256x8192x1 .f32 := broadcastInDim S256x8192x1 ![] bcast_S_S256x8192x1 main_cst_0
  let main_v6 : IVec S256x8192x1 1 := cmpf .olt main_v4 main_v5
  let main_c_1 : IVec S_ 1 := constantI S_ 1 1#1
  let main_v7 : IVec S_ 1 := (fun x v => Host.reduce IntOp.andi x v reducesTo_S256x8192x1_S_d0_1_2 h_S_) main_v6 main_c_1
  let main_v8 : IVec S_ 1 := andi main_v3 main_v7
  let main_v9 : FVec F S256x8192x1 .f32 := Host.absf main_arg4
  let main_cst_2 : FVec F S_ .f32 := constant S_ .f32 0x7F800000#32
  let main_v10 : FVec F S256x8192x1 .f32 := broadcastInDim S256x8192x1 ![] bcast_S_S256x8192x1 main_cst_2
  let main_v11 : IVec S256x8192x1 1 := cmpf .olt main_v9 main_v10
  let main_c_3 : IVec S_ 1 := constantI S_ 1 1#1
  let main_v12 : IVec S_ 1 := (fun x v => Host.reduce IntOp.andi x v reducesTo_S256x8192x1_S_d0_1_2 h_S_) main_v11 main_c_3
  let main_v13 : IVec S_ 1 := andi main_v8 main_v12
  let main_v14 : FVec F S256x8192 .f32 := Host.absf main_arg5
  let main_cst_4 : FVec F S_ .f32 := constant S_ .f32 0x7F800000#32
  let main_v15 : FVec F S256x8192 .f32 := broadcastInDim S256x8192 ![] bcast_S_S256x8192 main_cst_4
  let main_v16 : IVec S256x8192 1 := cmpf .olt main_v14 main_v15
  fn_part1 (F := F) main_arg2 main_arg3 main_arg4 main_v13 main_v16
-- ==== Kernel.lean ====
abbrev S256x8192x1 : Shape := ⟨3, ![256, 8192, 1]⟩
abbrev S256 : Shape := ⟨1, ![256]⟩
abbrev S256x8192 : Shape := ⟨2, ![256, 8192]⟩
abbrev S256x1 : Shape := ⟨2, ![256, 1]⟩
abbrev S1x1 : Shape := ⟨2, ![1, 1]⟩
abbrev S64x8192 : Shape := ⟨2, ![64, 8192]⟩
abbrev S64x1 : Shape := ⟨2, ![64, 1]⟩
abbrev S64 : Shape := ⟨1, ![64]⟩
abbrev S1 : Shape := ⟨1, ![1]⟩
abbrev S_ : Shape := ⟨0, ![]⟩

abbrev nBuf : Space → Nat
  | .hbm => 13
  | .vmem => 15
  | .smem => 0
  | _ => 0

abbrev bufTy : (tb : Table) → Fin (tcTables nBuf tb) → BufTy
  | .hbm, ⟨0, _⟩ => ⟨S256x8192x1, .f32⟩
  | .hbm, ⟨1, _⟩ => ⟨S256x8192x1, .f32⟩
  | .hbm, ⟨2, _⟩ => ⟨S256, .i32⟩
  | .hbm, ⟨3, _⟩ => ⟨S256, .i32⟩
  | .hbm, ⟨4, _⟩ => ⟨S256x8192x1, .f32⟩
  | .hbm, ⟨5, _⟩ => ⟨S256x8192, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S256x1, .i32⟩
  | .hbm, ⟨10, _⟩ => ⟨S256x1, .i32⟩
  | .hbm, ⟨11, _⟩ => ⟨S1x1, .f32⟩
  | .hbm, ⟨12, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | .local _ .vmem, ⟨6, _⟩ => ⟨S64x8192, .f32⟩
  | .local _ .vmem, ⟨7, _⟩ => ⟨S64x8192, .f32⟩
  | .local _ .vmem, ⟨8, _⟩ => ⟨S64x1, .i32⟩
  | .local _ .vmem, ⟨9, _⟩ => ⟨S64x1, .i32⟩
  | .local _ .vmem, ⟨10, _⟩ => ⟨S64x1, .i32⟩
  | .local _ .vmem, ⟨11, _⟩ => ⟨S64x1, .i32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S256x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v77 : BitVec 1 := Scalar.cmpi .eq arg0 c3_i32
  let v78 : BitVec 32 := Scalar.extui v77
  let c0_i32_34 : BitVec 32 := 0#32
  let v79 : BitVec 1 := Scalar.cmpi .ne v78 c0_i32_34
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S256x8192x1_S256x8192 : S256x8192x1.ShapeCasts S256x8192
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  reduces_S64x8192_S64 : S64x8192.Reduces [1] S64
  shapeCasts_S64_S64x1 : S64.ShapeCasts S64x1
  broadcasts_S64x1_S64x8192 : S64x1.Broadcasts S64x8192
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x8192_d1_w32 : S64x8192.Iotas .tc 32 [1]
  reduces_S64x1_S1 : S64x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S256x8192.size a
  hwx0_0 : ∀ i : grid0.Coords, EltTy.bits .f32 = 32 ∨ (Rect.block (s := S256x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S256x8192.size a
  hwx0_1 : ∀ i : grid0.Coords, EltTy.bits .f32 = 32 ∨ (Rect.block (s := S256x8192) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S256x8192.size a
  hwx0_2 : ∀ i : grid0.Coords, EltTy.bits .f32 = 32 ∨ (Rect.block (s := S256x8192) S64x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8192.size a ≤ S256x8192.size a
  hwx0_3 : ∀ i : grid0.Coords, EltTy.bits .f32 = 32 ∨ (Rect.block (s := S256x8192) S64x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S256x1.size a
  hwx0_4 : ∀ i : grid0.Coords, EltTy.bits .i32 = 32 ∨ (Rect.block (s := S256x1) S64x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S256x1.size a
  hwx0_5 : ∀ i : grid0.Coords, EltTy.bits .i32 = 32 ∨ (Rect.block (s := S256x1) S64x1.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_v0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S256x8192x1 : Shape := ⟨3, ![256, 8192, 1]⟩
abbrev S256 : Shape := ⟨1, ![256]⟩
abbrev S256x8192 : Shape := ⟨2, ![256, 8192]⟩
abbrev S_ : Shape := ⟨0, ![]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S256x8192x1, .f32⟩
  | .hbm, ⟨1, _⟩ => ⟨S256x8192x1, .f32⟩
  | .hbm, ⟨2, _⟩ => ⟨S256, .i32⟩
  | .hbm, ⟨3, _⟩ => ⟨S256, .i32⟩
  | .hbm, ⟨4, _⟩ => ⟨S256x8192x1, .f32⟩
  | .hbm, ⟨5, _⟩ => ⟨S256x8192, .f32⟩
  | .hbm, ⟨6, _⟩ => ⟨S256x8192, .f32⟩
  | .hbm, ⟨7, _⟩ => ⟨S_, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S256x1, .f32⟩
  | .hbm, ⟨13, _⟩ => ⟨S256x8192, .f32⟩
  | .hbm, ⟨14, _⟩ => ⟨S256x8192, .f32⟩
  | .hbm, ⟨15, _⟩ => ⟨S256x8192, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S256x1, .f32⟩
  | .hbm, ⟨20, _⟩ => ⟨S256x8192, .f32⟩
  | .hbm, ⟨21, _⟩ => ⟨S256x8192, .f32⟩
  | .hbm, ⟨22, _⟩ => ⟨S256x8192, .f32⟩
  | .hbm, ⟨23, _⟩ => ⟨S_, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256x1, .f32⟩
  | .hbm, ⟨29, _⟩ => ⟨S256x8192, .f32⟩
  | .hbm, ⟨30, _⟩ => ⟨S256x8192, .f32⟩
  | .hbm, ⟨31, _⟩ => ⟨S256x8192, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1, .f32⟩
  | .hbm, ⟨36, _⟩ => ⟨S256x8192, .f32⟩
  | .hbm, ⟨37, _⟩ => ⟨S256x8192, .f32⟩
  | .hbm, ⟨38, _⟩ => ⟨S256x1, .i32⟩
  | .hbm, ⟨39, _⟩ => ⟨S_, .i32⟩
  | .hbm, ⟨40, _⟩ => ⟨S256x1, .i32⟩
  | .hbm, ⟨41, _⟩ => ⟨S256x1, .i1⟩
  | .hbm, ⟨42, _⟩ => ⟨S_, .i32⟩
  | .hbm, ⟨43, _⟩ => ⟨S256x1, .i32⟩
  | .hbm, ⟨44, _⟩ => ⟨S256x1, .i32⟩
  | .hbm, ⟨45, _⟩ => ⟨S256x1, .i32⟩
  | .hbm, ⟨46, _⟩ => ⟨S256x1x1, .i32⟩
  | .hbm, ⟨47, _⟩ => ⟨S1, .i32⟩
  | .hbm, ⟨48, _⟩ => ⟨S_, .i32⟩
  | .hbm, ⟨49, _⟩ => ⟨S256x1x1, .i32⟩
  | .hbm, ⟨50, _⟩ => ⟨S256x1x1, .i1⟩
  | .hbm, ⟨51, _⟩ => ⟨S1x1x1, .i32⟩
  | .hbm, ⟨52, _⟩ => ⟨S256x1x1, .i32⟩
  | .hbm, ⟨53, _⟩ => ⟨S256x1x1, .i1⟩
  | .hbm, ⟨54, _⟩ => ⟨S256x1x1, .i1⟩
  | .hbm, ⟨55, _⟩ => ⟨S_, .i1⟩
  | .hbm, ⟨56, _⟩ => ⟨S256x1, .i1⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | .hbm, ⟨61, _⟩ => ⟨S256, .f32⟩
  | .hbm, ⟨62, _⟩ => ⟨S256x1, .i32⟩
  | .hbm, ⟨63, _⟩ => ⟨S_, .i32⟩
  | .hbm, ⟨64, _⟩ => ⟨S256x1, .i32⟩
  | .hbm, ⟨65, _⟩ => ⟨S256x1, .i1⟩
  | .hbm, ⟨66, _⟩ => ⟨S_, .i32⟩
  | .hbm, ⟨67, _⟩ => ⟨S256x1, .i32⟩
  | .hbm, ⟨68, _⟩ => ⟨S256x1, .i32⟩
  | .hbm, ⟨69, _⟩ => ⟨S256x1, .i32⟩
  | .hbm, ⟨70, _⟩ => ⟨S256x1x1, .i32⟩
  | .hbm, ⟨71, _⟩ => ⟨S1, .i32⟩
  | .hbm, ⟨72, _⟩ => ⟨S_, .i32⟩
  | .hbm, ⟨73, _⟩ => ⟨S256x1x1, .i32⟩
  | .hbm, ⟨74, _⟩ => ⟨S256x1x1, .i1⟩
  | .hbm, ⟨75, _⟩ => ⟨S1x1x1, .i32⟩
  | .hbm, ⟨76, _⟩ => ⟨S256x1x1, .i32⟩
  | .hbm, ⟨77, _⟩ => ⟨S256x1x1, .i1⟩
  | .hbm, ⟨78, _⟩ => ⟨S256x1x1, .i1⟩
  | .hbm, ⟨79, _⟩ => ⟨S_, .i1⟩
  | .hbm, ⟨80, _⟩ => ⟨S256x1, .i1⟩
  | .hbm, ⟨81, _⟩ => ⟨S256x1, .f32⟩
  | .hbm, ⟨82, _⟩ => ⟨S_, .f32⟩
  | .hbm, ⟨83, _⟩ => ⟨S256x1, .f32⟩
  | .hbm, ⟨84, _⟩ => ⟨S256x1, .f32⟩
  | .hbm, ⟨85, _⟩ => ⟨S256, .f32⟩
  | .hbm, ⟨86, _⟩ => ⟨S256, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S256x8192, .f32⟩
  | .hbm, ⟨92, _⟩ => ⟨S256x8192, .f32⟩
  | .hbm, ⟨93, _⟩ => ⟨S256x8192, .f32⟩
  | .hbm, ⟨94, _⟩ => ⟨S_, .f32⟩
  | .hbm, ⟨95, _⟩ => ⟨S256x8192, .f32⟩
  | .hbm, ⟨96, _⟩ => ⟨S256x8192, .f32⟩
  | .hbm, ⟨97, _⟩ => ⟨S_, .f32⟩
  | .hbm, ⟨98, _⟩ => ⟨S256x8192, .f32⟩
  | .hbm, ⟨99, _⟩ => ⟨S256x8192, .f32⟩
  | .hbm, ⟨100, _⟩ => ⟨S256x8192, .f32⟩
  | .hbm, ⟨101, _⟩ => ⟨S256x8192, .f32⟩
  | .hbm, ⟨102, _⟩ => ⟨S256x8192, .f32⟩
  | .hbm, ⟨103, _⟩ => ⟨S_, .f32⟩
  | .hbm, ⟨104, _⟩ => ⟨S256, .f32⟩
  | .hbm, ⟨105, _⟩ => ⟨S256, .f32⟩
  | .hbm, ⟨106, _⟩ => ⟨S_, .f32⟩
  | .hbm, ⟨107, _⟩ => ⟨S256, .f32⟩
  | .hbm, ⟨108, _⟩ => ⟨S256, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S256x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_cst_0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_cst_1 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_v3 : Ref sig .tc := ⟨.hbm, 37, rfl⟩
abbrev main_v4 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_cst : Ref sig .tc := ⟨.hbm, 82, rfl⟩
abbrev main_call3_v14 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_cst : Ref sig .tc := ⟨.hbm, 87, rfl⟩
abbrev main_v11 : Ref sig .tc := ⟨.hbm, 88, rfl⟩
abbrev main_cst_0 : Ref sig .tc := ⟨.hbm, 89, rfl⟩
abbrev main_v12 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_cst_1 : Ref sig .tc := ⟨.hbm, 94, rfl⟩
abbrev main_v16 : Ref sig .tc := ⟨.hbm, 95, rfl⟩
abbrev main_v17 : Ref sig .tc := ⟨.hbm, 96, rfl⟩
abbrev main_cst_2 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_cst_3 : Ref sig .tc := ⟨.hbm, 103, rfl⟩
abbrev main_v23 : Ref sig .tc := ⟨.hbm, 104, rfl⟩
abbrev main_v24 : Ref sig .tc := ⟨.hbm, 105, rfl⟩
abbrev main_cst_4 : Ref sig .tc := ⟨.hbm, 106, rfl⟩
abbrev main_v25 : Ref sig .tc := ⟨.hbm, 107, rfl⟩
abbrev main_v26 : Ref sig .tc := ⟨.hbm, 108, rfl⟩
abbrev main_cst_5 : Ref sig .tc := ⟨.hbm, 109, rfl⟩
abbrev main_v27 : Ref sig .tc := ⟨.hbm, 110, rfl⟩
abbrev main_cst_6 : Ref sig .tc := ⟨.hbm, 111, rfl⟩
abbrev main_v28 : Ref sig .tc := ⟨.hbm, 112, rfl⟩
abbrev main_cst_7 : Ref sig .tc := ⟨.hbm, 113, rfl⟩
abbrev main_v29 : Ref sig .tc := ⟨.hbm, 114, rfl⟩
abbrev main_cst_8 : Ref sig .tc := ⟨.hbm, 115, rfl⟩
abbrev main_v30 : Ref sig .tc := ⟨.hbm, 116, rfl⟩
abbrev main_v31 : Ref sig .tc := ⟨.hbm, 117, rfl⟩

abbrev nD : Nat := 1
abbrev τ : Topo := Topo.v7x

variable {F : FTy → Type} [FloatOps F]

class Facts₀ : Prop where
  shapeCasts_S256x8192x1_S256x8192 : S256x8192x1.ShapeCasts S256x8192
  reducesTo_S256x8192_S256_d1 : S256x8192.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x8192_0_1 : S256x1.BroadcastsInDim S256x8192 (![0, 1] : Fin 2 → Fin S256x8192.rank)
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  shapeCasts_S256x1_S256 : S256x1.ShapeCasts S256
  reducesTo_S256_S_d0 : S256.ReducesTo [0] S_
  bcast_S_S256x8192 : S_.BroadcastsInDim S256x8192 (![] : Fin 0 → Fin S256x8192.rank)
  gather_S256x8192_S256x1x1_S256x1_n_1_0_0_1_2_11_wf : GatherDims.WF S256x8192 S256x1x1 S256x1 [] [1] [0] [1] [0] 2 ![1, 1]

variable [Facts₀]

def gather_S256x8192_S256x1x1_S256x1_n_1_0_0_1_2_11 : GatherDims S256x8192 S256x1x1 S256x1 where
  offsetDims := []
  collapsedSliceDims := [1]
  operandBatchingDims := [0]
  startIndicesBatchingDims := [0]
  startIndexMap := [1]
  indexVectorDim := 2
  sliceSizes := ![1, 1]
  wf := gather_S256x8192_S256x1x1_S256x1_n_1_0_0_1_2_11_wf

class Facts : Prop extends Facts₀ where

variable [Facts]
-- ==== Proof.KernelPieces.lean ====
/-
  What one run of the kernel's body leaves in its two running sums and, at the last grid point, in its output block,
  as values of the blocks it loaded.

  The body adds to the first running sum the tile's sum of log-probabilities and to the second the tile's scaled
  cross-entropy sum. At the first grid point both running sums are first reset to zero, so what is added to is the
  zero block; at the later points it is what the point before left. At the last point the output block is the weighted
  sum of the two running sums after their update.
-/
import proofs.«409958_j6382321402277_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KV

open Cert.KernelIdeal Cert.KernelIdeal.Gen

variable {F : FTy → Type} [FloatOps F]

/-- The offset (0, 0) of a whole-block access. -/
theorem hz : (![0, 0] : Fin 2 → Nat) = fun _ => 0 := funext fun a => by fin_cases a <;> rfl

/-- The first running sum after one body run that found `s` in it: `s` plus the tile's log-probability sum. -/
abbrev stepLp (x0 x1 : Vec F S64x8192 .f32) (x4 x5 : Vec F S64x1 .i32) (s : Vec F S1x1 .f32) : Vec F S1x1 .f32 :=
  k0_pay12 (k0_pay6 x0) (k0_pay7 x0) (k0_pay8 x1) (k0_pay9 x1) (k0_pay10 x0 x4) (k0_pay11 x1 x5) s

/-- The second running sum after one body run that found `s` in it: `s` plus the tile's scaled cross-entropy sum. -/
abbrev stepBce (x2 x3 : Vec F S64x8192 .f32) (s : Vec F S1x1 .f32) : Vec F S1x1 .f32 := k0_pay13 x2 x3 s

/-- First grid point, first running sum: reset to the zero block, then updated. -/
theorem sout_A_0 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x1 .i32) (harg5 : arg5.IsWhole) (arg6 : Memref sig .tc .vmem S64x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S64x8192 .f32) (x1 : Vec F S64x8192 .f32) (x2 : Vec F S64x8192 .f32) (x3 : Vec F S64x8192 .f32) (x4 : Vec F S64x1 .i32) (x5 : Vec F S64x1 .i32) :
    sout0_A_0 c i arg1 harg1 arg2 harg2 arg3 harg3 arg4 harg4 arg5 harg5 arg6 harg6 arg7 harg7 arg8 harg8 arg9 harg9 hc0 hc1 x0 x1 x2 x3 x4 x5 = stepLp x0 x1 x4 x5 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg8.read_unread, harg9.read_unread, View.ld_unit_zero (S := S64x8192) hz, View.ld_unit_zero (S := S64x1) hz, View.ld_unit_zero (S := S1x1) hz, View.readCov_unit_zero (S := S1x1) _ hz]

/-- First grid point, second running sum: reset to the zero block, then updated. -/
theorem sout_A_1 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x1 .i32) (harg5 : arg5.IsWhole) (arg6 : Memref sig .tc .vmem S64x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S64x8192 .f32) (x1 : Vec F S64x8192 .f32) (x2 : Vec F S64x8192 .f32) (x3 : Vec F S64x8192 .f32) (x4 : Vec F S64x1 .i32) (x5 : Vec F S64x1 .i32) :
    sout0_A_1 c i arg1 harg1 arg2 harg2 arg3 harg3 arg4 harg4 arg5 harg5 arg6 harg6 arg7 harg7 arg8 harg8 arg9 harg9 hc0 hc1 x0 x1 x2 x3 x4 x5 = stepBce x2 x3 (k0_pay3 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg8.read_unread, harg9.read_unread, View.ld_unit_zero (S := S64x8192) hz, View.ld_unit_zero (S := S64x1) hz, View.ld_unit_zero (S := S1x1) hz, View.readCov_unit_zero (S := S1x1) _ hz]

/-- A middle grid point, first running sum: what the point before left, updated. -/
theorem sout_B_0 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x1 .i32) (harg5 : arg5.IsWhole) (arg6 : Memref sig .tc .vmem S64x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S64x8192 .f32) (x1 : Vec F S64x8192 .f32) (x2 : Vec F S64x8192 .f32) (x3 : Vec F S64x8192 .f32) (x4 : Vec F S64x1 .i32) (x5 : Vec F S64x1 .i32) (xs0 xs1 : Vec F S1x1 .f32) :
    sout0_B_0 c i arg1 harg1 arg2 harg2 arg3 harg3 arg4 harg4 arg5 harg5 arg6 harg6 arg7 harg7 arg8 harg8 arg9 harg9 hc0 hc1 x0 x1 x2 x3 x4 x5 xs0 xs1 = stepLp x0 x1 x4 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S64x8192) hz, View.ld_unit_zero (S := S64x1) hz, View.ld_unit_zero (S := S1x1) hz, View.readCov_unit_zero (S := S1x1) _ hz]

/-- A middle grid point, second running sum. -/
theorem sout_B_1 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x1 .i32) (harg5 : arg5.IsWhole) (arg6 : Memref sig .tc .vmem S64x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S64x8192 .f32) (x1 : Vec F S64x8192 .f32) (x2 : Vec F S64x8192 .f32) (x3 : Vec F S64x8192 .f32) (x4 : Vec F S64x1 .i32) (x5 : Vec F S64x1 .i32) (xs0 xs1 : Vec F S1x1 .f32) :
    sout0_B_1 c i arg1 harg1 arg2 harg2 arg3 harg3 arg4 harg4 arg5 harg5 arg6 harg6 arg7 harg7 arg8 harg8 arg9 harg9 hc0 hc1 x0 x1 x2 x3 x4 x5 xs0 xs1 = stepBce x2 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S64x8192) hz, View.ld_unit_zero (S := S64x1) hz, View.ld_unit_zero (S := S1x1) hz, View.readCov_unit_zero (S := S1x1) _ hz]

/-- The last grid point, first running sum. -/
theorem sout_C_0 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x1 .i32) (harg5 : arg5.IsWhole) (arg6 : Memref sig .tc .vmem S64x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S64x8192 .f32) (x1 : Vec F S64x8192 .f32) (x2 : Vec F S64x8192 .f32) (x3 : Vec F S64x8192 .f32) (x4 : Vec F S64x1 .i32) (x5 : Vec F S64x1 .i32) (xs0 xs1 : Vec F S1x1 .f32) :
    sout0_C_0 c i arg1 harg1 arg2 harg2 arg3 harg3 arg4 harg4 arg5 harg5 arg6 harg6 arg7 harg7 arg8 harg8 arg9 harg9 hc0 hc1 x0 x1 x2 x3 x4 x5 xs0 xs1 = stepLp x0 x1 x4 x5 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S64x8192) hz, View.ld_unit_zero (S := S64x1) hz, View.ld_unit_zero (S := S1x1) hz, View.readCov_unit_zero (S := S1x1) _ hz]

/-- The last grid point, second running sum. -/
theorem sout_C_1 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x1 .i32) (harg5 : arg5.IsWhole) (arg6 : Memref sig .tc .vmem S64x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S64x8192 .f32) (x1 : Vec F S64x8192 .f32) (x2 : Vec F S64x8192 .f32) (x3 : Vec F S64x8192 .f32) (x4 : Vec F S64x1 .i32) (x5 : Vec F S64x1 .i32) (xs0 xs1 : Vec F S1x1 .f32) :
    sout0_C_1 c i arg1 harg1 arg2 harg2 arg3 harg3 arg4 harg4 arg5 harg5 arg6 harg6 arg7 harg7 arg8 harg8 arg9 harg9 hc0 hc1 x0 x1 x2 x3 x4 x5 xs0 xs1 = stepBce x2 x3 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S64x8192) hz, View.ld_unit_zero (S := S64x1) hz, View.ld_unit_zero (S := S1x1) hz, View.readCov_unit_zero (S := S1x1) _ hz]

/-- The last grid point, the output block: the weighted sum of the two running sums after their update. -/
theorem out_C_6 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x1 .i32) (harg5 : arg5.IsWhole) (arg6 : Memref sig .tc .vmem S64x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S64x8192 .f32) (x1 : Vec F S64x8192 .f32) (x2 : Vec F S64x8192 .f32) (x3 : Vec F S64x8192 .f32) (x4 : Vec F S64x1 .i32) (x5 : Vec F S64x1 .i32) (xs0 xs1 : Vec F S1x1 .f32) :
    out0_C_6 c i arg1 harg1 arg2 harg2 arg3 harg3 arg4 harg4 arg5 harg5 arg6 harg6 arg7 harg7 arg8 harg8 arg9 harg9 hc0 hc1 x0 x1 x2 x3 x4 x5 xs0 xs1 = k0_pay1 (stepLp x0 x1 x4 x5 xs0) (stepBce x2 x3 xs1) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S64x8192) hz, View.ld_unit_zero (S := S64x1) hz, View.ld_unit_zero (S := S1x1) hz, View.readCov_unit_zero (S := S1x1) _ hz]

end Cert.KernelIdeal.KV

end
-- ==== Proof.Spec.lean ====
/-
  The two sides of the loss as functions of rows, before any program is opened.

  The loss is the sum of two parts. The first part is, per batch row, the log-softmax of the start logits at the
  start position plus the log-softmax of the end logits at the end position, summed over the batch and scaled.
  The second part is, per batch row, the negated sum over the tokens of
  tag · log p + (1 − tag) · log (1 − p), divided by the number of tokens, averaged over the batch.

  The kernel walks the batch in four tiles of 64 rows, keeps two running sums, negates each token's term before it
  sums a row, multiplies a tile's sum by 1/8192, and picks a row's logit at its position by a one-hot sum over the
  lanes. The reference picks the logit by an index, sums a row first and negates after, and divides.
-/
import Idealize.ShloMosaic.PureOps.Ideal
import Idealize.ShloMosaic.PureOps.Ideal.Laws
import Idealize.ShloMosaic.Lib.ValueIdx

noncomputable section

namespace Cert.Combo

open Idealize.ShloMosaic Idealize.ShloMosaic.ValueIdx

/-! ## The float words the two programs spell -/

/-- −∞, the start of a running maximum. -/
abbrev wNegInf : EReal := Ideal.ofBits .f32 0xFF800000#32
/-- 0. -/
abbrev wZero : EReal := Ideal.ofBits .f32 0x00000000#32
/-- 1. -/
abbrev wOne : EReal := Ideal.ofBits .f32 0x3F800000#32
/-- −1/512, the weight of the log-probability part. -/
abbrev wLp : EReal := Ideal.ofBits .f32 0xBB000000#32
/-- 1/256, the kernel's batch mean. -/
abbrev wInvB : EReal := Ideal.ofBits .f32 0x3B800000#32
/-- 1/8192, the kernel's token mean. -/
abbrev wInvS : EReal := Ideal.ofBits .f32 0x39000000#32
/-- 8192, the reference's token count. -/
abbrev wS : EReal := Ideal.ofBits .f32 0x46000000#32
/-- 256, the reference's batch size. -/
abbrev wB : EReal := Ideal.ofBits .f32 0x43800000#32

/-! ## The arguments by rows -/

/-- Row `b`, token `k` of a [256, 8192, 1] argument. -/
def rows3 (a : (⟨3, ![256, 8192, 1]⟩ : Shape).Idx → EReal) (b : Fin 256) (k : Fin 8192) : EReal := a (ix3 b k (0 : Fin 1))

/-- Row `b`, token `k` of a [256, 8192] argument. -/
def rows2 (a : (⟨2, ![256, 8192]⟩ : Shape).Idx → EReal) (b : Fin 256) (k : Fin 8192) : EReal := a (ix2 b k)

/-- Entry `b` of a [256] argument of position words. -/
def word1 (a : (⟨1, ![256]⟩ : Shape).Idx → BitVec 32) (b : Fin 256) : BitVec 32 := a (ix1 b)

/-! ## One row -/

/-- The maximum of a row, folded from −∞. -/
def rowMax (x : Fin 8192 → EReal) : EReal := (Finset.univ : Finset (Fin 8192)).fold max wNegInf x

/-- The logarithm of the sum of the exponentials of a row shifted by its maximum. -/
def lse (x : Fin 8192 → EReal) : EReal := Ideal.log (∑ k : Fin 8192, Ideal.exp (x k - rowMax x))

/-- A row's entry at the lane a position word names, as a one-hot sum over the lanes. -/
def pickK (x : Fin 8192 → EReal) (p : BitVec 32) : EReal :=
  ∑ k : Fin 8192, if BitVec.ofNat 32 k.val = p then x k else wZero

/-- A row's entry at a lane number (0 off the row). -/
def rowAt (x : Fin 8192 → EReal) (n : ℕ) : EReal := if h : n < 8192 then x ⟨n, h⟩ else 0

/-- The kernel's log-probability of a row at a position word. -/
def lpK (x : Fin 8192 → EReal) (p : BitVec 32) : EReal := pickK x p - rowMax x - lse x

/-- The reference's log-probability of a row at a position word that names a lane. -/
def lpR (x : Fin 8192 → EReal) (p : BitVec 32) : EReal := rowAt x p.toNat - rowMax x - lse x

/-- One token's cross-entropy term before negation. -/
def bce (p t : EReal) : EReal := t * Ideal.log p + (wOne - t) * Ideal.log (wOne - p)

/-! ## The batch -/

/-- Row `r` of tile `t` is batch row 64 t + r. -/
def row (t : Fin 4) (r : Fin 64) : Fin 256 := ⟨t.val * 64 + r.val, by have := t.isLt; have := r.isLt; omega⟩

/-- A tile's sum of per-row values. -/
def tileLp (f : Fin 256 → EReal) (t : Fin 4) : EReal := ∑ r : Fin 64, f (row t r)

/-- A tile's cross-entropy: each token's term negated (as 0 − term), summed over the row, the rows summed, the total scaled by 1/8192. -/
def tileBce (g : Fin 256 → Fin 8192 → EReal) (t : Fin 4) : EReal :=
  (∑ r : Fin 64, ∑ k : Fin 8192, (wZero - g (row t r) k)) * wInvS

/-- The kernel's result: both running sums start at 0 and take the four tiles in order. -/
def kernelTotal (f : Fin 256 → EReal) (g : Fin 256 → Fin 8192 → EReal) : EReal :=
  wLp * ((((wZero + tileLp f 0) + tileLp f 1) + tileLp f 2) + tileLp f 3)
    + wInvB * ((((wZero + tileBce g 0) + tileBce g 1) + tileBce g 2) + tileBce g 3)

/-- The reference's result. -/
def refTotal (f : Fin 256 → EReal) (g : Fin 256 → Fin 8192 → EReal) : EReal :=
  wOne * (wLp * (wZero + ∑ b : Fin 256, f b))
    + wOne * Ideal.div (wZero + ∑ b : Fin 256, Ideal.div (-(wZero + ∑ k : Fin 8192, g b k)) wS) wB

end Cert.Combo

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.KernelRows.lean ====
/-
  The body's arithmetic at the extended reals, read at an index: what one run adds to each running sum, as sums over
  the rows and lanes of the blocks it loaded, and the output block's weighted sum.
-/
import proofs.«409958_j6382321402277_3_alg».proof.Proof.Gen.KernelIdeal.Skeleton
import proofs.«409958_j6382321402277_3_alg».proof.Proof.Spec
import proofs.«409958_j6382321402277_3_alg».proof.Proof.LibVecRows
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open Idealize.ShloMosaic Idealize.ShloMosaic.ValueIdx

namespace Cert.KernelIdeal.KV

open Cert.KernelIdeal Cert.KernelIdeal.Gen Cert.Combo

/-- Row `r` of a block of 64 rows. -/
def blkRow (x : Vec Ideal S64x8192 .f32) (r : Fin 64) : Fin 8192 → EReal := fun k => x (ix2 r k)

/-- A tile's sum of log-probabilities: per row, the start logits' at the start position plus the end logits' at the end position. -/
def blockLp (x0 x1 : Vec Ideal S64x8192 .f32) (x4 x5 : Vec Ideal S64x1 .i32) : EReal :=
  ∑ r : Fin 64, (lpK (blkRow x0 r) (x4 (ix2 r (0 : Fin 1))) + lpK (blkRow x1 r) (x5 (ix2 r (0 : Fin 1))))

/-- A tile's scaled cross-entropy sum: each token's term negated as 0 − term, summed over the row, the rows summed, times 1/8192. -/
def blockBce (x2 x3 : Vec Ideal S64x8192 .f32) : EReal :=
  (∑ r : Fin 64, ∑ k : Fin 8192, (wZero - bce (x2 (ix2 r k)) (x3 (ix2 r k)))) * wInvS

/-! ## The non-pointwise operations read at an index -/

/-- The maximum over the second axis of a 64 × 8192 block, read at row `r`: the fold of `max` from −∞ over the row. -/
private theorem rows_max_apply (src : FVec Ideal S64x8192 .f32) (h : S64x8192.Reduces [1] S64) (hφ : FKind.Formats .f32)
    (hacc : (0xFF800000#32 : BitVec 32) = FKind.maximumf.neutral .f32 hφ) (r : Fin 64) :
    multiReduction .maximumf [1] S64 src 0xFF800000#32 h hφ hacc (ix1 r)
      = (Finset.univ : Finset (Fin 8192)).fold max (Ideal.ofBits .f32 0xFF800000#32) (fun k => src (ix2 r k)) := by
  -- The reduction over one axis folds `max` over that axis's coordinates of the source at the row index with the
  -- coordinate inserted, which on the second axis of a rank-2 block is (r, k).
  refine (Ideal.multiReduction_maximumf_single src _ h hφ hacc (ix1 r)).trans ?_
  show (Finset.univ : Finset (Fin 8192)).fold max (Ideal.ofBits .f32 0xFF800000#32) (fun k => src (h.lift (ix1 r) k)) = _
  refine congrArg (fun f => (Finset.univ : Finset (Fin 8192)).fold max (Ideal.ofBits .f32 0xFF800000#32) f) ?_
  funext k
  refine congrArg src ?_
  funext c
  match c with
  | ⟨0, _⟩ => exact Fin.ext rfl
  | ⟨1, _⟩ => exact Fin.ext rfl

/-- The sum over the first axis of a 64 × 1 column: the sum of its 64 entries. -/
private theorem rows_colsum_apply (src : FVec Ideal S64x1 .f32) (acc : BitVec 32) (h : S64x1.Reduces [0] S1) (hφ : FKind.Formats .f32)
    (hacc : acc = FKind.add.neutral .f32 hφ) (j : S1.Idx) :
    multiReduction .add [0] S1 src acc h hφ hacc j = ∑ r : Fin 64, src (ix2 r (0 : Fin 1)) := by
  -- The inserted index is (r, 0): the kept axis has extent 1.
  refine (Ideal.multiReduction_add_single src acc h hφ hacc j).trans ?_
  show ∑ r : Fin 64, src (h.lift j r) = ∑ r : Fin 64, src (ix2 r (0 : Fin 1))
  refine Finset.sum_congr rfl fun r _ => congrArg src ?_
  funext c
  match c with
  | ⟨0, _⟩ => exact Fin.ext rfl
  | ⟨1, hc⟩ => exact Fin.ext (by
    have hlt := (h.lift j r ⟨1, hc⟩).isLt
    have h1 : S64x1.size ⟨1, hc⟩ = 1 := rfl
    show (h.lift j r ⟨1, hc⟩).val = 0
    omega)

/-- A one-entry vector viewed as a 1 × 1 block reads its entry. -/
private theorem rows_cast11_apply {α : Type} (v : S1.Idx → α) (h : S1.ShapeCasts S1x1) (j : S1x1.Idx) :
    shapeCast S1x1 v h j = v (ix1 (0 : Fin 1)) :=
  -- Both shapes have one index, at row-major position 0.
  shapeCast_apply v h _ _ (by
    have h0 : (j 0).val < 1 := (j 0).isLt
    have h1 : (j 1).val < 1 := (j 1).isLt
    rw [Shape.rowMajor_val_one, Shape.rowMajor_val_two]
    show 0 = (j 0).val * 1 + (j 1).val
    omega)

/-- The lane counter of a 64 × 8192 block reads the lane's number. -/
private theorem rows_iota_apply (h : S64x8192.Iotas .tc 32 [1]) (r : Fin 64) (k : Fin 8192) :
    iota .tc S64x8192 32 [1] h (ix2 r k) = BitVec.ofNat 32 k.val :=
  iota_single_apply .tc S64x8192 32 1 h (ix2 r k)

/-! ## The rows of one logit block: maximum, log-sum-exp, and the entry at a position -/

/-- The body's cast of a loaded block to its own shape is the block. -/
private theorem rows_pay4 (x : Vec Ideal S64x8192 .f32) : k0_pay4 x = x := shapeCast_self x _
private theorem rows_pay5 (x : Vec Ideal S64x8192 .f32) : k0_pay5 x = x := shapeCast_self x _

/-- The column of row maxima of the first logit block. -/
private theorem rows_pay6_apply (x : Vec Ideal S64x8192 .f32) (r : Fin 64) :
    k0_pay6 x (ix2 r (0 : Fin 1)) = rowMax (blkRow x r) := by
  unfold k0_pay6
  rw [rows_pay4]
  exact (Cert.LibVecRows.shapeCast_col_apply _ _ r 0).trans (rows_max_apply x _ _ _ r)

/-- The column of row maxima of the second logit block. -/
private theorem rows_pay8_apply (x : Vec Ideal S64x8192 .f32) (r : Fin 64) :
    k0_pay8 x (ix2 r (0 : Fin 1)) = rowMax (blkRow x r) := by
  unfold k0_pay8
  rw [rows_pay5]
  exact (Cert.LibVecRows.shapeCast_col_apply _ _ r 0).trans (rows_max_apply x _ _ _ r)

/-- The column of the rows' log-sum-exp of the first logit block. -/
private theorem rows_pay7_apply (x : Vec Ideal S64x8192 .f32) (r : Fin 64) :
    k0_pay7 x (ix2 r (0 : Fin 1)) = lse (blkRow x r) := by
  unfold k0_pay7
  rw [rows_pay4]
  -- the logarithm is pointwise; under it the column view of the lane sum of the shifted exponentials
  refine congrArg Ideal.log ?_
  refine (Cert.LibVecRows.shapeCast_col_apply _ _ r 0).trans ?_
  refine (Cert.LibVecRows.multiReduction_rows_apply _ _ _ _ _ r).trans ?_
  refine Finset.sum_congr rfl fun k _ => ?_
  refine congrArg Ideal.exp ?_
  refine congrArg (fun m => x (ix2 r k) - m) ?_
  exact (Cert.LibVecRows.broadcastTo_col_apply _ _ r k).trans (rows_pay6_apply x r)

/-- The column of the rows' log-sum-exp of the second logit block. -/
private theorem rows_pay9_apply (x : Vec Ideal S64x8192 .f32) (r : Fin 64) :
    k0_pay9 x (ix2 r (0 : Fin 1)) = lse (blkRow x r) := by
  unfold k0_pay9
  rw [rows_pay5]
  refine congrArg Ideal.log ?_
  refine (Cert.LibVecRows.shapeCast_col_apply _ _ r 0).trans ?_
  refine (Cert.LibVecRows.multiReduction_rows_apply _ _ _ _ _ r).trans ?_
  refine Finset.sum_congr rfl fun k _ => ?_
  refine congrArg Ideal.exp ?_
  refine congrArg (fun m => x (ix2 r k) - m) ?_
  exact (Cert.LibVecRows.broadcastTo_col_apply _ _ r k).trans (rows_pay8_apply x r)

/-- One lane of the one-hot select: the block's entry where the lane's number is the row's position word, else 0. -/
private theorem rows_pick_lane (x : Vec Ideal S64x8192 .f32) (p : Vec Ideal S64x1 .i32) (hi : S64x8192.Iotas .tc 32 [1])
    (hb : S64x1.Broadcasts S64x8192) (hc : S64x1.ShapeCasts S64x1) (r : Fin 64) (k : Fin 8192) :
    select (cmpi .eq (iota .tc S64x8192 32 [1] hi) (broadcastTo S64x8192 (shapeCast S64x1 p hc) hb)) x
        (broadcast S64x8192 (Scalar.ofBits (F := Ideal) .f32 0x00000000#32)) (ix2 r k)
      = if BitVec.ofNat 32 k.val = p (ix2 r (0 : Fin 1)) then x (ix2 r k) else wZero := by
  -- select and the comparison are pointwise; the counter reads the lane's number, the broadcast column the row's word
  show Scalar.select (IntOp.cmpi .eq (iota .tc S64x8192 32 [1] hi (ix2 r k))
      (broadcastTo S64x8192 (shapeCast S64x1 p hc) hb (ix2 r k))) (x (ix2 r k)) wZero = _
  rw [rows_iota_apply, Cert.LibVecRows.broadcastTo_col_apply, shapeCast_self]
  unfold Scalar.select
  exact if_congr StableHlo.Predicate.cmpi_eq_iff rfl rfl

/-- The column of the first logit block's entries at the start positions, as one-hot lane sums. -/
private theorem rows_pay10_apply (x : Vec Ideal S64x8192 .f32) (p : Vec Ideal S64x1 .i32) (r : Fin 64) :
    k0_pay10 x p (ix2 r (0 : Fin 1)) = pickK (blkRow x r) (p (ix2 r (0 : Fin 1))) := by
  unfold k0_pay10
  rw [rows_pay4]
  refine (Cert.LibVecRows.shapeCast_col_apply _ _ r 0).trans ?_
  refine (Cert.LibVecRows.multiReduction_rows_apply _ _ _ _ _ r).trans ?_
  exact Finset.sum_congr rfl fun k _ => rows_pick_lane x p _ _ _ r k

/-- The column of the second logit block's entries at the end positions, as one-hot lane sums. -/
private theorem rows_pay11_apply (x : Vec Ideal S64x8192 .f32) (p : Vec Ideal S64x1 .i32) (r : Fin 64) :
    k0_pay11 x p (ix2 r (0 : Fin 1)) = pickK (blkRow x r) (p (ix2 r (0 : Fin 1))) := by
  unfold k0_pay11
  rw [rows_pay5]
  refine (Cert.LibVecRows.shapeCast_col_apply _ _ r 0).trans ?_
  refine (Cert.LibVecRows.multiReduction_rows_apply _ _ _ _ _ r).trans ?_
  exact Finset.sum_congr rfl fun k _ => rows_pick_lane x p _ _ _ r k

/-! ## What one run adds to each running sum, and the output block -/

/-- The update of the first running sum adds the tile's log-probability sum. -/
theorem stepLp_apply (x0 x1 : Vec Ideal S64x8192 .f32) (x4 x5 : Vec Ideal S64x1 .i32) (s : Vec Ideal S1x1 .f32) (j : S1x1.Idx) :
    k0_pay12 (k0_pay6 x0) (k0_pay7 x0) (k0_pay8 x1) (k0_pay9 x1) (k0_pay10 x0 x4) (k0_pay11 x1 x5) s j = s j + blockLp x0 x1 x4 x5 := by
  unfold k0_pay12
  -- the last cast is to the block's own shape; under the sum with the running value, the 1 × 1 view of the sum over
  -- the 64 rows of (pick − max − lse) of the first block plus the same of the second
  refine (congrFun (shapeCast_self _ _) j).trans ?_
  refine congrArg (fun m => s j + m) ?_
  refine (rows_cast11_apply _ _ j).trans ?_
  refine (rows_colsum_apply _ _ _ _ _ _).trans ?_
  unfold blockLp
  refine Finset.sum_congr rfl fun r _ => ?_
  show (k0_pay10 x0 x4 (ix2 r (0 : Fin 1)) - k0_pay6 x0 (ix2 r (0 : Fin 1)) - k0_pay7 x0 (ix2 r (0 : Fin 1)))
      + (k0_pay11 x1 x5 (ix2 r (0 : Fin 1)) - k0_pay8 x1 (ix2 r (0 : Fin 1)) - k0_pay9 x1 (ix2 r (0 : Fin 1))) = _
  rw [rows_pay6_apply, rows_pay7_apply, rows_pay8_apply, rows_pay9_apply, rows_pay10_apply, rows_pay11_apply]
  rfl

/-- The update of the second running sum adds the tile's scaled cross-entropy sum. -/
theorem stepBce_apply (x2 x3 : Vec Ideal S64x8192 .f32) (s : Vec Ideal S1x1 .f32) (j : S1x1.Idx) :
    k0_pay13 x2 x3 s j = s j + blockBce x2 x3 := by
  unfold k0_pay13
  -- the last cast is to the block's own shape; under the sum with the running value and the scaling by 1/8192, the
  -- 1 × 1 view of the sum over the rows of the column of lane sums of the negated terms
  refine (congrFun (shapeCast_self _ _) j).trans ?_
  refine congrArg (fun m => s j + m) ?_
  unfold blockBce
  refine congrArg (fun m => m * wInvS) ?_
  refine (rows_cast11_apply _ _ j).trans ?_
  refine (rows_colsum_apply _ _ _ _ _ _).trans ?_
  refine Finset.sum_congr rfl fun r _ => ?_
  refine (Cert.LibVecRows.shapeCast_col_apply _ _ r 0).trans ?_
  refine (Cert.LibVecRows.multiReduction_rows_apply _ _ _ _ _ r).trans ?_
  refine Finset.sum_congr rfl fun k _ => ?_
  -- one token: every operation left is pointwise, and the probabilities' cast is to their own shape
  rw [shapeCast_self]
  rfl

/-- The output block is −1/512 times the first running sum plus 1/256 times the second. -/
theorem pay1_apply (s0 s1 : Vec Ideal S1x1 .f32) (j : S1x1.Idx) : k0_pay1 s0 s1 j = wLp * s0 j + wInvB * s1 j := by
  unfold k0_pay1
  rfl

/-- The reset stores the zero block. -/
theorem pay2_apply (j : S1x1.Idx) : k0_pay2 (F := Ideal) j = wZero := by
  unfold k0_pay2
  exact congrFun (shapeCast_self _ _) j

theorem pay3_apply (j : S1x1.Idx) : k0_pay3 (F := Ideal) j = wZero := by
  unfold k0_pay3
  exact congrFun (shapeCast_self _ _) j

end Cert.KernelIdeal.KV

end
-- ==== Proof.KernelValue.lean ====
/-
  The kernel's result array after the run, as a number: the weighted sum of the two running sums after the last of
  the four grid points, each running sum the chain 0 + tile 0 + tile 1 + tile 2 + tile 3 of what the body adds per point.
-/
import proofs.«409958_j6382321402277_3_alg».proof.Proof.KernelPieces
import proofs.«409958_j6382321402277_3_alg».proof.Proof.KernelRows

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen Cert.Combo

variable (m : (ℓ : Loc nD τ sig) → Buf (Elt Ideal) ℓ) (ρ : Dev nD → PrngReg)

/-- The six input blocks at grid point `t`, at their literal types: start logits, end logits, probabilities, tags,
    start positions, end positions. -/
abbrev blkS (c : Dev nD) (t : Fin cfg0.N) : Vec Ideal S64x8192 .f32 := iblk m c 0 t
abbrev blkE (c : Dev nD) (t : Fin cfg0.N) : Vec Ideal S64x8192 .f32 := iblk m c 1 t
abbrev blkP (c : Dev nD) (t : Fin cfg0.N) : Vec Ideal S64x8192 .f32 := iblk m c 2 t
abbrev blkT (c : Dev nD) (t : Fin cfg0.N) : Vec Ideal S64x8192 .f32 := iblk m c 3 t
abbrev blkPs (c : Dev nD) (t : Fin cfg0.N) : Vec Ideal S64x1 .i32 := iblk m c 4 t
abbrev blkPe (c : Dev nD) (t : Fin cfg0.N) : Vec Ideal S64x1 .i32 := iblk m c 5 t

/-- What grid point `t` adds to the first running sum. -/
def addLp (c : Dev nD) (t : Fin cfg0.N) : EReal := blockLp (blkS m c t) (blkE m c t) (blkPs m c t) (blkPe m c t)

/-- What grid point `t` adds to the second running sum. -/
def addBce (c : Dev nD) (t : Fin cfg0.N) : EReal := blockBce (blkP m c t) (blkT m c t)

/-- The first running sum after point `n`: zero plus the points' addends in order. -/
def chainLp (c : Dev nD) : (n : ℕ) → n < cfg0.N → EReal
  | 0, h => wZero + addLp m c ⟨0, h⟩
  | n + 1, h => chainLp c n (Nat.lt_of_succ_lt h) + addLp m c ⟨n + 1, h⟩

/-- The second running sum after point `n`. -/
def chainBce (c : Dev nD) : (n : ℕ) → n < cfg0.N → EReal
  | 0, h => wZero + addBce m c ⟨0, h⟩
  | n + 1, h => chainBce c n (Nat.lt_of_succ_lt h) + addBce m c ⟨n + 1, h⟩

/-- The two running sums after point `n` are the chains: by induction on the point, the first point resetting both
    to zero before it adds, every later point adding to what the point before left. -/
theorem scratch_eq (c : Dev nD) : ∀ (n : ℕ) (h : n < cfg0.N),
    (outsAt0 m c n h).2.1 = (fun _ => chainLp m c n h) ∧ (outsAt0 m c n h).2.2 = (fun _ => chainBce m c n h)
  | 0, h => by
    rw [outsAt0_A m c ⟨0, h⟩ rfl (by show ¬(0 % 4 = 3); decide)]
    dsimp only
    rw [sout_A_0, sout_A_1]
    refine ⟨funext fun j => ?_, funext fun j => ?_⟩
    · refine (stepLp_apply (blkS m c ⟨0, h⟩) (blkE m c ⟨0, h⟩) (blkPs m c ⟨0, h⟩) (blkPe m c ⟨0, h⟩) _ j).trans ?_
      rw [pay2_apply]; rfl
    · refine (stepBce_apply (blkP m c ⟨0, h⟩) (blkT m c ⟨0, h⟩) _ j).trans ?_
      rw [pay3_apply]; rfl
  | n + 1, h => by
    have hN : cfg0.N = 4 := N_0
    have ih := scratch_eq c n (Nat.lt_of_succ_lt h)
    have h0 : ¬(⟨n + 1, h⟩ : Fin cfg0.N).val % 4 = 0 := by dsimp only; omega
    by_cases h1 : (⟨n + 1, h⟩ : Fin cfg0.N).val % 4 = 3
    · rw [outsAt0_C m c ⟨n + 1, h⟩ h0 h1]
      dsimp only
      rw [sout_C_0, sout_C_1]
      refine ⟨funext fun j => ?_, funext fun j => ?_⟩
      · refine (stepLp_apply (blkS m c ⟨n + 1, h⟩) (blkE m c ⟨n + 1, h⟩) (blkPs m c ⟨n + 1, h⟩) (blkPe m c ⟨n + 1, h⟩) _ j).trans ?_
        show (outsAt0 m c n _).2.1 j + _ = chainLp m c n _ + addLp m c ⟨n + 1, h⟩
        rw [ih.1]; rfl
      · refine (stepBce_apply (blkP m c ⟨n + 1, h⟩) (blkT m c ⟨n + 1, h⟩) _ j).trans ?_
        show (outsAt0 m c n _).2.2 j + _ = chainBce m c n _ + addBce m c ⟨n + 1, h⟩
        rw [ih.2]; rfl
    · rw [outsAt0_B m c ⟨n + 1, h⟩ h0 h1]
      dsimp only
      rw [sout_B_0, sout_B_1]
      refine ⟨funext fun j => ?_, funext fun j => ?_⟩
      · refine (stepLp_apply (blkS m c ⟨n + 1, h⟩) (blkE m c ⟨n + 1, h⟩) (blkPs m c ⟨n + 1, h⟩) (blkPe m c ⟨n + 1, h⟩) _ j).trans ?_
        show (outsAt0 m c n _).2.1 j + _ = chainLp m c n _ + addLp m c ⟨n + 1, h⟩
        rw [ih.1]; rfl
      · refine (stepBce_apply (blkP m c ⟨n + 1, h⟩) (blkT m c ⟨n + 1, h⟩) _ j).trans ?_
        show (outsAt0 m c n _).2.2 j + _ = chainBce m c n _ + addBce m c ⟨n + 1, h⟩
        rw [ih.2]; rfl

/-- The last grid point. -/
theorem lt3 : 3 < cfg0.N := by rw [show cfg0.N = 4 from N_0]; decide

/-- The kernel's result: −1/512 times the first running sum plus 1/256 times the second, after the last point. -/
def result (c : Dev nD) : EReal := wLp * chainLp m c 3 lt3 + wInvB * chainBce m c 3 lt3

/-- What the last point leaves in the output block. -/
theorem out_last (c : Dev nD) : (outsAt0 m c 3 lt3).1 = fun _ => result m c := by
  have ih := scratch_eq m c 2 (Nat.lt_of_succ_lt lt3)
  rw [outsAt0_C m c ⟨3, lt3⟩ (by show ¬(3 % 4 = 0); decide) rfl]
  dsimp only
  rw [out_C_6]
  funext j
  refine (pay1_apply _ _ j).trans ?_
  refine congrArg₂ (fun a b : EReal => wLp * a + wInvB * b) ?_ ?_
  · refine (stepLp_apply (blkS m c ⟨3, lt3⟩) (blkE m c ⟨3, lt3⟩) (blkPs m c ⟨3, lt3⟩) (blkPe m c ⟨3, lt3⟩) _ j).trans ?_
    show (outsAt0 m c 2 _).2.1 j + _ = chainLp m c 2 _ + addLp m c ⟨3, lt3⟩
    rw [ih.1]; rfl
  · refine (stepBce_apply (blkP m c ⟨3, lt3⟩) (blkT m c ⟨3, lt3⟩) _ j).trans ?_
    show (outsAt0 m c 2 _).2.2 j + _ = chainBce m c 2 _ + addBce m c ⟨3, lt3⟩
    rw [ih.2]; rfl

/-- The result as contents of the one-element result array. -/
abbrev resultArr (c : Dev nD) : Buf (Elt Ideal) ((c : Thread nD τ).loc main_v5) := fun _ => result m c

/-- The one write-back, at the last point, writes the result: the block is the whole one-element array. -/
theorem flushed_eq (c : Dev nD) (t : Fin cfg0.N) (hf : (cfg0.win 6).flush t = true) :
    (dats m 0 c).flushed 6 t = ((cfg0.win 6).blk t).view.read (Elt Ideal) (resultArr m c) := by
  have hN : cfg0.N = 4 := N_0
  have h3 : t.val = 3 := by have := (flush0_6 t).mp hf; have := t.isLt; omega
  obtain rfl : t = ⟨3, lt3⟩ := Fin.ext h3
  show (cfg0.win 6).cut (grid0.coords ⟨3, lt3⟩) ((dats m 0 c).after 6 ⟨3, lt3⟩) = _
  rw [after0_6, out_last]
  rfl

/-- So the result array ends holding the result: the last point's block covers its one element. -/
theorem final_o (c : Dev nD) : (dats m 0 c).arrAt 6 cfg0.N = resultArr m c :=
  (dats m 0 c).arrAt_eq_of_cover 6 (resultArr m c) (flushed_eq m c) fun i =>
    ⟨⟨3, lt3⟩, (flush0_6 ⟨3, lt3⟩).mpr rfl, by
      show i ∈ ((View.whole main_v5).slice (win0_6.rect ⟨3, lt3⟩)).set
      rw [View.set_slice_whole, Rect.mem_set_unit]
      intro a
      have h0 : (i 0 : Nat) < 1 := (i 0).isLt
      have h1 : (i 1 : Nat) < 1 := (i 1).isLt
      match a with
      | ⟨0, _⟩ => show win0_6.index ⟨3, lt3⟩ 0 * win0_6.size 0 ≤ (i 0 : Nat) ∧ (i 0 : Nat) < win0_6.index ⟨3, lt3⟩ 0 * win0_6.size 0 + win0_6.xsize (grid0.coords ⟨3, lt3⟩) 0
                  rw [show win0_6.index ⟨3, lt3⟩ 0 * win0_6.size 0 = 0 from by decide +kernel, show win0_6.xsize (grid0.coords ⟨3, lt3⟩) 0 = 1 from by decide +kernel]; omega
      | ⟨1, _⟩ => show win0_6.index ⟨3, lt3⟩ 1 * win0_6.size 1 ≤ (i 1 : Nat) ∧ (i 1 : Nat) < win0_6.index ⟨3, lt3⟩ 1 * win0_6.size 1 + win0_6.xsize (grid0.coords ⟨3, lt3⟩) 1
                  rw [show win0_6.index ⟨3, lt3⟩ 1 * win0_6.size 1 = 0 from by decide +kernel, show win0_6.xsize (grid0.coords ⟨3, lt3⟩) 1 = 1 from by decide +kernel]; omega⟩

end Cert.KernelIdeal.KV

end
-- ==== Proof.KernelBlocks.lean ====
/-
  What a grid point adds to the running sums, in terms of the argument arrays: tile `t`'s rows are batch rows
  64 t + r, the blocks the windows read are those rows of the arrays as the kernel finds them, and those arrays are
  the arguments with the trailing unit axis dropped.
-/
import proofs.«409958_j6382321402277_3_alg».proof.Proof.KernelValue
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.KV

open Cert.KernelIdeal Cert.KernelIdeal.Gen Cert.Combo

variable (m : (ℓ : Loc nD τ sig) → Buf (Elt Ideal) ℓ)

/-- A batch row's value on the kernel's side: the start logits' log-probability at the start position plus the end
    logits' at the end position, from the arguments as launched. -/
def fK (c : Dev nD) : Fin 256 → EReal := fun b =>
  lpK (rows3 (m ((c : Thread nD τ).loc main_arg0)) b) (word1 (m ((c : Thread nD τ).loc main_arg2)) b)
    + lpK (rows3 (m ((c : Thread nD τ).loc main_arg1)) b) (word1 (m ((c : Thread nD τ).loc main_arg3)) b)

/-- A token's cross-entropy term from the arguments as launched. -/
def gK (c : Dev nD) : Fin 256 → Fin 8192 → EReal := fun b k =>
  bce (rows3 (m ((c : Thread nD τ).loc main_arg4)) b k) (rows2 (m ((c : Thread nD τ).loc main_arg5)) b k)

/-! ## The arrays the region finds: the arguments with the unit axis dropped or added -/

/-- A [256, 8192, 1] array viewed [256, 8192] reads its entry (b, k, 0). -/
private theorem blocks_drop_apply {α : Type} (a : S256x8192x1.Idx → α) (h : S256x8192x1.ShapeCasts S256x8192) (b : Fin 256) (k : Fin 8192) :
    shapeCast S256x8192 a h (ix2 b k) = a (ix3 b k (0 : Fin 1)) :=
  -- Both indices have the row-major position b · 8192 + k.
  shapeCast_apply a h _ _ (by
    rw [Shape.rowMajor_val_three, Shape.rowMajor_val_two]
    show (b.val * 8192 + k.val) * 1 + 0 = b.val * 8192 + k.val
    omega)

/-- The start logits as the region finds them: the first argument with its unit axis dropped. -/
private theorem blocks_V_v0 (c : Dev nD) : (V m c main_v0 : S256x8192.Idx → EReal)
    = shapeCast S256x8192 (m ((c : Thread nD τ).loc main_arg0)) shapeCasts_S256x8192x1_S256x8192 := by
  show StableHlo.after hostOps0 (fun b => m (c, b)) (Proc.devRef .tc main_v0) = _
  after_results
  rfl

/-- The end logits as the region finds them. -/
private theorem blocks_V_v1 (c : Dev nD) : (V m c main_v1 : S256x8192.Idx → EReal)
    = shapeCast S256x8192 (m ((c : Thread nD τ).loc main_arg1)) shapeCasts_S256x8192x1_S256x8192 := by
  show StableHlo.after hostOps0 (fun b => m (c, b)) (Proc.devRef .tc main_v1) = _
  after_results
  rfl

/-- The probabilities as the region finds them. -/
private theorem blocks_V_v2 (c : Dev nD) : (V m c main_v2 : S256x8192.Idx → EReal)
    = shapeCast S256x8192 (m ((c : Thread nD τ).loc main_arg4)) shapeCasts_S256x8192x1_S256x8192 := by
  show StableHlo.after hostOps0 (fun b => m (c, b)) (Proc.devRef .tc main_v2) = _
  after_results
  rfl

/-- The start positions as the region finds them: the argument as a column. -/
private theorem blocks_V_v3 (c : Dev nD) : (V m c main_v3 : S256x1.Idx → BitVec 32)
    = shapeCast S256x1 (m ((c : Thread nD τ).loc main_arg2)) shapeCasts_S256_S256x1 := by
  show StableHlo.after hostOps0 (fun b => m (c, b)) (Proc.devRef .tc main_v3) = _
  after_results
  rfl

/-- The end positions as the region finds them. -/
private theorem blocks_V_v4 (c : Dev nD) : (V m c main_v4 : S256x1.Idx → BitVec 32)
    = shapeCast S256x1 (m ((c : Thread nD τ).loc main_arg3)) shapeCasts_S256_S256x1 := by
  show StableHlo.after hostOps0 (fun b => m (c, b)) (Proc.devRef .tc main_v4) = _
  after_results
  rfl

/-! ## A window's block at a grid point: rows 64 t … 64 t + 63 of its array -/

/-- The first window's block at point t, read at (r, k): its array at (64 t + r, k). -/
private theorem blocks_S_at (c : Dev nD) (t : Fin cfg0.N) (r : Fin 64) (k : Fin 8192) (hb : t.val * 64 + r.val < 256) :
    blkS m c t (ix2 r k) = (V m c main_v0 : S256x8192.Idx → EReal) (ix2 ⟨t.val * 64 + r.val, hb⟩ k) := by
  -- the window's index map at point t is (t, 0); a block's coordinate is index × size + the coordinate inside the block
  have hi : win0_0.index t 0 = t.val ∧ win0_0.index t 1 = 0 := by
    rcases fin_N0 t with rfl | rfl | rfl | rfl <;> decide
  unfold blkS iblk
  rw [View.read_apply]
  show V m c main_v0 _ = V m c main_v0 _
  congr 1
  funext a
  apply Fin.ext
  match a with
  | ⟨0, _⟩ => show win0_0.index t 0 * 64 + 1 * r.val = t.val * 64 + r.val; rw [hi.1]; omega
  | ⟨1, _⟩ => show win0_0.index t 1 * 8192 + 1 * k.val = k.val; rw [hi.2]; omega

/-- The same for the second window. -/
private theorem blocks_E_at (c : Dev nD) (t : Fin cfg0.N) (r : Fin 64) (k : Fin 8192) (hb : t.val * 64 + r.val < 256) :
    blkE m c t (ix2 r k) = (V m c main_v1 : S256x8192.Idx → EReal) (ix2 ⟨t.val * 64 + r.val, hb⟩ k) := by
  -- the window's index map at point t is (t, 0); a block's coordinate is index × size + the coordinate inside the block
  have hi : win0_1.index t 0 = t.val ∧ win0_1.index t 1 = 0 := by
    rcases fin_N0 t with rfl | rfl | rfl | rfl <;> decide
  unfold blkE iblk
  rw [View.read_apply]
  show V m c main_v1 _ = V m c main_v1 _
  congr 1
  funext a
  apply Fin.ext
  match a with
  | ⟨0, _⟩ => show win0_1.index t 0 * 64 + 1 * r.val = t.val * 64 + r.val; rw [hi.1]; omega
  | ⟨1, _⟩ => show win0_1.index t 1 * 8192 + 1 * k.val = k.val; rw [hi.2]; omega

/-- The same for the third window. -/
private theorem blocks_P_at (c : Dev nD) (t : Fin cfg0.N) (r : Fin 64) (k : Fin 8192) (hb : t.val * 64 + r.val < 256) :
    blkP m c t (ix2 r k) = (V m c main_v2 : S256x8192.Idx → EReal) (ix2 ⟨t.val * 64 + r.val, hb⟩ k) := by
  -- the window's index map at point t is (t, 0); a block's coordinate is index × size + the coordinate inside the block
  have hi : win0_2.index t 0 = t.val ∧ win0_2.index t 1 = 0 := by
    rcases fin_N0 t with rfl | rfl | rfl | rfl <;> decide
  unfold blkP iblk
  rw [View.read_apply]
  show V m c main_v2 _ = V m c main_v2 _
  congr 1
  funext a
  apply Fin.ext
  match a with
  | ⟨0, _⟩ => show win0_2.index t 0 * 64 + 1 * r.val = t.val * 64 + r.val; rw [hi.1]; omega
  | ⟨1, _⟩ => show win0_2.index t 1 * 8192 + 1 * k.val = k.val; rw [hi.2]; omega

/-- The same for the fourth window, whose array is the tags argument itself. -/
private theorem blocks_T_at (c : Dev nD) (t : Fin cfg0.N) (r : Fin 64) (k : Fin 8192) (hb : t.val * 64 + r.val < 256) :
    blkT m c t (ix2 r k) = (V m c main_arg5 : S256x8192.Idx → EReal) (ix2 ⟨t.val * 64 + r.val, hb⟩ k) := by
  -- the window's index map at point t is (t, 0); a block's coordinate is index × size + the coordinate inside the block
  have hi : win0_3.index t 0 = t.val ∧ win0_3.index t 1 = 0 := by
    rcases fin_N0 t with rfl | rfl | rfl | rfl <;> decide
  unfold blkT iblk
  rw [View.read_apply]
  show V m c main_arg5 _ = V m c main_arg5 _
  congr 1
  funext a
  apply Fin.ext
  match a with
  | ⟨0, _⟩ => show win0_3.index t 0 * 64 + 1 * r.val = t.val * 64 + r.val; rw [hi.1]; omega
  | ⟨1, _⟩ => show win0_3.index t 1 * 8192 + 1 * k.val = k.val; rw [hi.2]; omega

/-- The fifth window's block at point t, read at (r, 0): its column at (64 t + r, 0). -/
private theorem blocks_Ps_at (c : Dev nD) (t : Fin cfg0.N) (r : Fin 64) (hb : t.val * 64 + r.val < 256) :
    blkPs m c t (ix2 r (0 : Fin 1)) = (V m c main_v3 : S256x1.Idx → BitVec 32) (ix2 ⟨t.val * 64 + r.val, hb⟩ (0 : Fin 1)) := by
  have hi : win0_4.index t 0 = t.val ∧ win0_4.index t 1 = 0 := by
    rcases fin_N0 t with rfl | rfl | rfl | rfl <;> decide
  unfold blkPs iblk
  rw [View.read_apply]
  show V m c main_v3 _ = V m c main_v3 _
  congr 1
  funext a
  apply Fin.ext
  match a with
  | ⟨0, _⟩ => show win0_4.index t 0 * 64 + 1 * r.val = t.val * 64 + r.val; rw [hi.1]; omega
  | ⟨1, _⟩ => show win0_4.index t 1 * 1 + 1 * 0 = 0; rw [hi.2]

/-- The same for the sixth window. -/
private theorem blocks_Pe_at (c : Dev nD) (t : Fin cfg0.N) (r : Fin 64) (hb : t.val * 64 + r.val < 256) :
    blkPe m c t (ix2 r (0 : Fin 1)) = (V m c main_v4 : S256x1.Idx → BitVec 32) (ix2 ⟨t.val * 64 + r.val, hb⟩ (0 : Fin 1)) := by
  have hi : win0_5.index t 0 = t.val ∧ win0_5.index t 1 = 0 := by
    rcases fin_N0 t with rfl | rfl | rfl | rfl <;> decide
  unfold blkPe iblk
  rw [View.read_apply]
  show V m c main_v4 _ = V m c main_v4 _
  congr 1
  funext a
  apply Fin.ext
  match a with
  | ⟨0, _⟩ => show win0_5.index t 0 * 64 + 1 * r.val = t.val * 64 + r.val; rw [hi.1]; omega
  | ⟨1, _⟩ => show win0_5.index t 1 * 1 + 1 * 0 = 0; rw [hi.2]

/-! ## The blocks in terms of the arguments as launched -/

/-- The start-logit block's row r at point t is batch row 64 t + r of the first argument. -/
private theorem blocks_S_apply (c : Dev nD) (t : Fin cfg0.N) (r : Fin 64) (k : Fin 8192) (b : Fin 256) (hbv : b.val = t.val * 64 + r.val) :
    blkS m c t (ix2 r k) = rows3 (m ((c : Thread nD τ).loc main_arg0)) b k := by
  obtain ⟨b, hb⟩ := b
  obtain rfl : b = t.val * 64 + r.val := hbv
  refine (blocks_S_at m c t r k hb).trans ?_
  rw [blocks_V_v0]
  exact blocks_drop_apply _ _ _ k

/-- The end-logit block's row r at point t is batch row 64 t + r of the second argument. -/
private theorem blocks_E_apply (c : Dev nD) (t : Fin cfg0.N) (r : Fin 64) (k : Fin 8192) (b : Fin 256) (hbv : b.val = t.val * 64 + r.val) :
    blkE m c t (ix2 r k) = rows3 (m ((c : Thread nD τ).loc main_arg1)) b k := by
  obtain ⟨b, hb⟩ := b
  obtain rfl : b = t.val * 64 + r.val := hbv
  refine (blocks_E_at m c t r k hb).trans ?_
  rw [blocks_V_v1]
  exact blocks_drop_apply _ _ _ k

/-- The probability block's row r at point t is batch row 64 t + r of the fifth argument. -/
private theorem blocks_P_apply (c : Dev nD) (t : Fin cfg0.N) (r : Fin 64) (k : Fin 8192) (b : Fin 256) (hbv : b.val = t.val * 64 + r.val) :
    blkP m c t (ix2 r k) = rows3 (m ((c : Thread nD τ).loc main_arg4)) b k := by
  obtain ⟨b, hb⟩ := b
  obtain rfl : b = t.val * 64 + r.val := hbv
  refine (blocks_P_at m c t r k hb).trans ?_
  rw [blocks_V_v2]
  exact blocks_drop_apply _ _ _ k

/-- The tag block's row r at point t is batch row 64 t + r of the sixth argument, which no host operation rewrites. -/
private theorem blocks_T_apply (c : Dev nD) (t : Fin cfg0.N) (r : Fin 64) (k : Fin 8192) (b : Fin 256) (hbv : b.val = t.val * 64 + r.val) :
    blkT m c t (ix2 r k) = rows2 (m ((c : Thread nD τ).loc main_arg5)) b k := by
  obtain ⟨b, hb⟩ := b
  obtain rfl : b = t.val * 64 + r.val := hbv
  refine (blocks_T_at m c t r k hb).trans ?_
  rw [V_main_arg5]
  rfl

/-- The start-position block's entry r at point t is entry 64 t + r of the third argument. -/
private theorem blocks_Ps_apply (c : Dev nD) (t : Fin cfg0.N) (r : Fin 64) (b : Fin 256) (hbv : b.val = t.val * 64 + r.val) :
    blkPs m c t (ix2 r (0 : Fin 1)) = word1 (m ((c : Thread nD τ).loc main_arg2)) b := by
  obtain ⟨b, hb⟩ := b
  obtain rfl : b = t.val * 64 + r.val := hbv
  refine (blocks_Ps_at m c t r hb).trans ?_
  rw [blocks_V_v3]
  exact Cert.LibVecRows.shapeCast_col_apply _ _ _ 0

/-- The end-position block's entry r at point t is entry 64 t + r of the fourth argument. -/
private theorem blocks_Pe_apply (c : Dev nD) (t : Fin cfg0.N) (r : Fin 64) (b : Fin 256) (hbv : b.val = t.val * 64 + r.val) :
    blkPe m c t (ix2 r (0 : Fin 1)) = word1 (m ((c : Thread nD τ).loc main_arg3)) b := by
  obtain ⟨b, hb⟩ := b
  obtain rfl : b = t.val * 64 + r.val := hbv
  refine (blocks_Pe_at m c t r hb).trans ?_
  rw [blocks_V_v4]
  exact Cert.LibVecRows.shapeCast_col_apply _ _ _ 0

/-- What grid point `n` adds to the first running sum is tile `n`'s sum of the batch rows' values. -/
theorem addLp_eq (c : Dev nD) (n : ℕ) (h : n < cfg0.N) (h4 : n < 4) :
    addLp m c ⟨n, h⟩ = tileLp (fK m c) ⟨n, h4⟩ := by
  unfold addLp blockLp tileLp fK
  refine Finset.sum_congr rfl fun r _ => ?_
  -- row r of the blocks at point n is batch row 64 n + r of the arguments
  have eS : blkRow (blkS m c ⟨n, h⟩) r = rows3 (m ((c : Thread nD τ).loc main_arg0)) (row ⟨n, h4⟩ r) :=
    funext fun k => blocks_S_apply m c ⟨n, h⟩ r k (row ⟨n, h4⟩ r) rfl
  have eE : blkRow (blkE m c ⟨n, h⟩) r = rows3 (m ((c : Thread nD τ).loc main_arg1)) (row ⟨n, h4⟩ r) :=
    funext fun k => blocks_E_apply m c ⟨n, h⟩ r k (row ⟨n, h4⟩ r) rfl
  exact congrArg₂ (fun a b : EReal => a + b)
    (congrArg₂ lpK eS (blocks_Ps_apply m c ⟨n, h⟩ r (row ⟨n, h4⟩ r) rfl))
    (congrArg₂ lpK eE (blocks_Pe_apply m c ⟨n, h⟩ r (row ⟨n, h4⟩ r) rfl))

/-- What grid point `n` adds to the second running sum is tile `n`'s scaled cross-entropy sum. -/
theorem addBce_eq (c : Dev nD) (n : ℕ) (h : n < cfg0.N) (h4 : n < 4) :
    addBce m c ⟨n, h⟩ = tileBce (gK m c) ⟨n, h4⟩ := by
  unfold addBce blockBce tileBce gK
  refine congrArg (fun s : EReal => s * wInvS) ?_
  refine Finset.sum_congr rfl fun r _ => Finset.sum_congr rfl fun k _ => ?_
  refine congrArg (fun b : EReal => wZero - b) ?_
  exact congrArg₂ bce (blocks_P_apply m c ⟨n, h⟩ r k (row ⟨n, h4⟩ r) rfl) (blocks_T_apply m c ⟨n, h⟩ r k (row ⟨n, h4⟩ r) rfl)

end Cert.KernelIdeal.KV

end
-- ==== Proof.KernelFinal.lean ====
/-
  The kernel's run read as a value: every weakly fair execution ends with the scalar result at the kernel's total
  over the argument arrays as launched, and the arguments unchanged.

  The result array of the pallas_call is a single element; the one host operation after the region reshapes it to a
  scalar. The four points' addends are the four tiles' sums over the argument arrays.
-/
import proofs.«409958_j6382321402277_3_alg».proof.Proof.KernelBlocks
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.Combo

variable (m : (ℓ : Loc nD τ sig) → Buf (Elt Ideal) ℓ) (ρ : Dev nD → PrngReg)

/-- The result after the last point is the kernel's total over the arguments: each running sum is zero plus the four
    tiles in order. -/
theorem result_eq (c : Dev nD) : result m c = kernelTotal (fK m c) (gK m c) := by
  have hN : cfg0.N = 4 := N_0
  have h0 : 0 < cfg0.N := by omega
  have h1 : 1 < cfg0.N := by omega
  have h2 : 2 < cfg0.N := by omega
  show wLp * ((((wZero + addLp m c ⟨0, h0⟩) + addLp m c ⟨1, h1⟩) + addLp m c ⟨2, h2⟩) + addLp m c ⟨3, lt3⟩)
      + wInvB * ((((wZero + addBce m c ⟨0, h0⟩) + addBce m c ⟨1, h1⟩) + addBce m c ⟨2, h2⟩) + addBce m c ⟨3, lt3⟩) = _
  rw [addLp_eq m c 0 h0 (by decide), addLp_eq m c 1 h1 (by decide), addLp_eq m c 2 h2 (by decide), addLp_eq m c 3 lt3 (by decide),
    addBce_eq m c 0 h0 (by decide), addBce_eq m c 1 h1 (by decide), addBce_eq m c 2 h2 (by decide), addBce_eq m c 3 lt3 (by decide)]
  rfl

/-- The scalar the host reads out of the one-element result array is its element. -/
theorem tail_eq (c : Dev nD) :
    Pipeline.afterTail₀ cfgs (dats m) 0 (V0 m) [hostOps1] c main_v6 = fun _ => kernelTotal (fK m c) (gK m c) := by
  unfold Pipeline.afterTail₀
  show StableHlo.after hostOps1 _ (Proc.devRef .tc main_v6) = _
  after_results
  rw [show (Pipeline.withArrays (cfgs 0).spec c (V0 m c) (fun w => (dats m 0 c).arrAt w (cfgs 0).N) (Proc.devRef .tc main_v5))
      = resultArr m c from (Pipeline.withArrays_arr spec0 launch0.win.arr_inj c _ _ 6).trans (final_o m c)]
  funext i
  refine (shapeCast_apply (resultArr m c) shapeCasts_S1x1_S_ i (ix2 (0 : Fin 1) (0 : Fin 1)) ?_).trans (result_eq m c)
  have h1 : (S1x1.rowMajor (ix2 (0 : Fin 1) (0 : Fin 1))).val < 1 := lt_of_lt_of_eq (Fin.isLt _) (by decide)
  have h2 : (S_.rowMajor i).val < 1 := lt_of_lt_of_eq (Fin.isLt _) (by decide)
  show (S1x1.rowMajor (ix2 (0 : Fin 1) (0 : Fin 1))).val = (S_.rowMajor i).val
  omega

/-- The run: the scalar result at the kernel's total, the six arguments as launched. -/
theorem run : θ_run defs (onTc (τ := τ) (main (F := Ideal))) ⟨m, fun _ => 0, ρ⟩ fun r => ∀ c : Dev nD,
      r.2.mem ((c.tc : Thread nD τ).loc main_v6) = (fun _ => kernelTotal (fK m c) (gK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v6 (Pipeline.mem_restRefs_of main_v6 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c)))⟩)
    (run_main m ρ)

end Cert.KernelIdeal.KV

end
-- ==== Proof.RefRun.lean ====
/-
  The reference program's run: every weakly fair execution of its host operations terminates with the result buffer
  at the last stage of the stage functions, read off the arguments as launched, and the arguments unchanged.
-/
import proofs.«409958_j6382321402277_3_alg».proof.Proof.RefRunOps
import proofs.«409958_j6382321402277_3_alg».proof.Proof.RefRead
import Idealize.ShloMosaic.Lib.StableHlo.Run
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Contents carried to a typed reference's buffer and back are the contents. -/
private theorem ofBuf_toBuf {sg : RefSig} {T : BufTy} {Val : EltTy → Type} (x : TRef sg T) (v : T.Contents Val) :
    x.ofBuf (x.toBuf v) = v := by
  obtain ⟨r, h, hd, hs⟩ := x
  subst h
  rfl

/-- Operations 1–16: the log-softmax of the start logits. -/
abbrev opsA : List (HloOp τ sig (Elt F)) :=
  [ reshape main_arg0 main_v0 rfl shapeCasts_S256x8192x1_S256x8192,
    TRef.nullary (TRef.of (T := ⟨S_, .f32⟩) main_call0_cst) (constant S_ .f32 0xFF800000#32),
    TRef.binary (TRef.of (T := ⟨S256x8192, .f32⟩) main_v0) (TRef.of (T := ⟨S_, .f32⟩) main_call0_cst) (TRef.of (T := ⟨S256, .f32⟩) main_call0_v0) (fun x v => Host.reduce FloatOps.maximumf x v reducesTo_S256x8192_S256_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S256, .f32⟩) main_call0_v1) (broadcastInDim S256 ![] bcast_S_S256),
    TRef.binary (TRef.of (T := ⟨S256, .f32⟩) main_call0_v1) (TRef.of (T := ⟨S256, .f32⟩) main_call0_v0) (TRef.of (T := ⟨S256, .f32⟩) main_call0_v2) maximumf,
    TRef.unary (TRef.of (T := ⟨S256, .f32⟩) main_call0_v2) (TRef.of (T := ⟨S256x1, .f32⟩) main_call0_v3) (broadcastInDim S256x1 ![0] bcast_S256_S256x1_0),
    TRef.unary (TRef.of (T := ⟨S256x1, .f32⟩) main_call0_v3) (TRef.of (T := ⟨S256x8192, .f32⟩) main_call0_v4) (broadcastInDim S256x8192 ![0, 1] bcast_S256x1_S256x8192_0_1),
    TRef.binary (TRef.of (T := ⟨S256x8192, .f32⟩) main_v0) (TRef.of (T := ⟨S256x8192, .f32⟩) main_call0_v4) (TRef.of (T := ⟨S256x8192, .f32⟩) main_call0_v5) subf,
    TRef.unary (TRef.of (T := ⟨S256x8192, .f32⟩) main_call0_v5) (TRef.of (T := ⟨S256x8192, .f32⟩) main_call0_v6) Host.exp,
    TRef.nullary (TRef.of (T := ⟨S_, .f32⟩) main_call0_cst_1) (constant S_ .f32 0x00000000#32),
    TRef.binary (TRef.of (T := ⟨S256x8192, .f32⟩) main_call0_v6) (TRef.of (T := ⟨S_, .f32⟩) main_call0_cst_1) (TRef.of (T := ⟨S256, .f32⟩) main_call0_v7) (fun x v => Host.reduceAdd x v reducesTo_S256x8192_S256_d1 h_S_),
    TRef.unary (TRef.of (T := ⟨S256, .f32⟩) main_call0_v7) (TRef.of (T := ⟨S256x1, .f32⟩) main_call0_v8) (broadcastInDim S256x1 ![0] bcast_S256_S256x1_0),
    TRef.unary (TRef.of (T := ⟨S256x1, .f32⟩) main_call0_v8) (TRef.of (T := ⟨S256x1, .f32⟩) main_call0_v9) Host.log,
    TRef.unary (TRef.of (T := ⟨S256x1, .f32⟩) main_call0_v9) (TRef.of (T := ⟨S256x8192, .f32⟩) main_call0_v10) (broadcastInDim S256x8192 ![0, 1] bcast_S256x1_S256x8192_0_1),
    TRef.binary (TRef.of (T := ⟨S256x8192, .f32⟩) main_call0_v5) (TRef.of (T := ⟨S256x8192, .f32⟩) main_call0_v10) (TRef.of (T := ⟨S256x8192, .f32⟩) main_v1) subf ]

/-- Operations 17–32: the log-softmax of the end logits. -/
abbrev opsB : List (HloOp τ sig (Elt F)) :=
  [ reshape main_arg1 main_v2 rfl shapeCasts_S256x8192x1_S256x8192,
    TRef.nullary (TRef.of (T := ⟨S_, .f32⟩) main_call1_cst) (constant S_ .f32 0xFF800000#32),
    TRef.binary (TRef.of (T := ⟨S256x8192, .f32⟩) main_v2) (TRef.of (T := ⟨S_, .f32⟩) main_call1_cst) (TRef.of (T := ⟨S256, .f32⟩) main_call1_v0) (fun x v => Host.reduce FloatOps.maximumf x v reducesTo_S256x8192_S256_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S256, .f32⟩) main_call1_v1) (broadcastInDim S256 ![] bcast_S_S256),
    TRef.binary (TRef.of (T := ⟨S256, .f32⟩) main_call1_v1) (TRef.of (T := ⟨S256, .f32⟩) main_call1_v0) (TRef.of (T := ⟨S256, .f32⟩) main_call1_v2) maximumf,
    TRef.unary (TRef.of (T := ⟨S256, .f32⟩) main_call1_v2) (TRef.of (T := ⟨S256x1, .f32⟩) main_call1_v3) (broadcastInDim S256x1 ![0] bcast_S256_S256x1_0),
    TRef.unary (TRef.of (T := ⟨S256x1, .f32⟩) main_call1_v3) (TRef.of (T := ⟨S256x8192, .f32⟩) main_call1_v4) (broadcastInDim S256x8192 ![0, 1] bcast_S256x1_S256x8192_0_1),
    TRef.binary (TRef.of (T := ⟨S256x8192, .f32⟩) main_v2) (TRef.of (T := ⟨S256x8192, .f32⟩) main_call1_v4) (TRef.of (T := ⟨S256x8192, .f32⟩) main_call1_v5) subf,
    TRef.unary (TRef.of (T := ⟨S256x8192, .f32⟩) main_call1_v5) (TRef.of (T := ⟨S256x8192, .f32⟩) main_call1_v6) Host.exp,
    TRef.nullary (TRef.of (T := ⟨S_, .f32⟩) main_call1_cst_1) (constant S_ .f32 0x00000000#32),
    TRef.binary (TRef.of (T := ⟨S256x8192, .f32⟩) main_call1_v6) (TRef.of (T := ⟨S_, .f32⟩) main_call1_cst_1) (TRef.of (T := ⟨S256, .f32⟩) main_call1_v7) (fun x v => Host.reduceAdd x v reducesTo_S256x8192_S256_d1 h_S_),
    TRef.unary (TRef.of (T := ⟨S256, .f32⟩) main_call1_v7) (TRef.of (T := ⟨S256x1, .f32⟩) main_call1_v8) (broadcastInDim S256x1 ![0] bcast_S256_S256x1_0),
    TRef.unary (TRef.of (T := ⟨S256x1, .f32⟩) main_call1_v8) (TRef.of (T := ⟨S256x1, .f32⟩) main_call1_v9) Host.log,
    TRef.unary (TRef.of (T := ⟨S256x1, .f32⟩) main_call1_v9) (TRef.of (T := ⟨S256x8192, .f32⟩) main_call1_v10) (broadcastInDim S256x8192 ![0, 1] bcast_S256x1_S256x8192_0_1),
    TRef.binary (TRef.of (T := ⟨S256x8192, .f32⟩) main_call1_v5) (TRef.of (T := ⟨S256x8192, .f32⟩) main_call1_v10) (TRef.of (T := ⟨S256x8192, .f32⟩) main_v3) subf ]

/-- Operations 33–56: the start log-probabilities picked at the start positions. -/
abbrev opsC : List (HloOp τ sig (Elt F)) :=
  [ unary main_arg2 main_v4 (broadcastInDim S256x1 ![0] bcast_S256_S256x1_0 : (⟨S256, .i32⟩ : BufTy).Contents (Elt F) → (⟨S256x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S256x1, .i32⟩) main_call2_v0) (broadcastInDim S256x1 ![] bcast_S_S256x1),
    TRef.binary (TRef.of (T := ⟨S256x1, .i32⟩) main_v4) (TRef.of (T := ⟨S256x1, .i32⟩) main_call2_v0) (TRef.of (T := ⟨S256x1, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S256x1, .i32⟩) main_call2_v2) (broadcastInDim S256x1 ![] bcast_S_S256x1),
    TRef.binary (TRef.of (T := ⟨S256x1, .i32⟩) main_v4) (TRef.of (T := ⟨S256x1, .i32⟩) main_call2_v2) (TRef.of (T := ⟨S256x1, .i32⟩) main_call2_v3) addi,
    TRef.ternary (TRef.of (T := ⟨S256x1, .i1⟩) main_call2_v1) (TRef.of (T := ⟨S256x1, .i32⟩) main_call2_v3) (TRef.of (T := ⟨S256x1, .i32⟩) main_v4) (TRef.of (T := ⟨S256x1, .i32⟩) main_call2_v4) select,
    TRef.reshape (TRef.of (T := ⟨S256x1, .i32⟩) main_call2_v4) (TRef.of (T := ⟨S256x1x1, .i32⟩) main_call2_v5) rfl shapeCasts_S256x1_S256x1x1,
    TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S256x1x1, .i32⟩) main_call2_v6) (broadcastInDim S256x1x1 ![] bcast_S_S256x1x1),
    TRef.binary (TRef.of (T := ⟨S256x1x1, .i32⟩) main_call2_v5) (TRef.of (T := ⟨S256x1x1, .i32⟩) main_call2_v6) (TRef.of (T := ⟨S256x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S256x1x1, .i32⟩) main_call2_v9) (broadcastInDim S256x1x1 ![0, 1, 2] bcast_S1x1x1_S256x1x1_0_1_2),
    TRef.binary (TRef.of (T := ⟨S256x1x1, .i32⟩) main_call2_v5) (TRef.of (T := ⟨S256x1x1, .i32⟩) main_call2_v9) (TRef.of (T := ⟨S256x1x1, .i1⟩) main_call2_v10) (cmpi .sle),
    TRef.binary (TRef.of (T := ⟨S256x1x1, .i1⟩) main_call2_v7) (TRef.of (T := ⟨S256x1x1, .i1⟩) main_call2_v10) (TRef.of (T := ⟨S256x1x1, .i1⟩) main_call2_v11) andi,
    TRef.nullary (TRef.of (T := ⟨S_, .i1⟩) main_call2_c_3) (constantI S_ 1 1#1),
    TRef.binary (TRef.of (T := ⟨S256x1x1, .i1⟩) main_call2_v11) (TRef.of (T := ⟨S_, .i1⟩) main_call2_c_3) (TRef.of (T := ⟨S256x1, .i1⟩) main_call2_v12) (fun x v => Host.reduce IntOp.andi x v reducesTo_S256x1x1_S256x1_d2 h_S_),
    TRef.binary (TRef.of (T := ⟨S256x8192, .f32⟩) main_v1) (TRef.of (T := ⟨S256x1x1, .i32⟩) main_call2_v5) (TRef.of (T := ⟨S256x1, .f32⟩) main_call2_v13) (fun x i => Host.gather gather_S256x8192_S256x1x1_S256x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S256x1, .f32⟩) main_call2_v14) (broadcastInDim S256x1 ![] bcast_S_S256x1),
    TRef.ternary (TRef.of (T := ⟨S256x1, .i1⟩) main_call2_v12) (TRef.of (T := ⟨S256x1, .f32⟩) main_call2_v13) (TRef.of (T := ⟨S256x1, .f32⟩) main_call2_v14) (TRef.of (T := ⟨S256x1, .f32⟩) main_v5) select,
    reshape main_v5 main_v6 rfl shapeCasts_S256x1_S256 ]

/-- Operations 57–80: the end log-probabilities picked at the end positions. -/
abbrev opsD : List (HloOp τ sig (Elt F)) :=
  [ unary main_arg3 main_v7 (broadcastInDim S256x1 ![0] bcast_S256_S256x1_0 : (⟨S256, .i32⟩ : BufTy).Contents (Elt F) → (⟨S256x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S256x1, .i32⟩) main_call3_v0) (broadcastInDim S256x1 ![] bcast_S_S256x1),
    TRef.binary (TRef.of (T := ⟨S256x1, .i32⟩) main_v7) (TRef.of (T := ⟨S256x1, .i32⟩) main_call3_v0) (TRef.of (T := ⟨S256x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S256x1, .i32⟩) main_call3_v2) (broadcastInDim S256x1 ![] bcast_S_S256x1),
    TRef.binary (TRef.of (T := ⟨S256x1, .i32⟩) main_v7) (TRef.of (T := ⟨S256x1, .i32⟩) main_call3_v2) (TRef.of (T := ⟨S256x1, .i32⟩) main_call3_v3) addi,
    TRef.ternary (TRef.of (T := ⟨S256x1, .i1⟩) main_call3_v1) (TRef.of (T := ⟨S256x1, .i32⟩) main_call3_v3) (TRef.of (T := ⟨S256x1, .i32⟩) main_v7) (TRef.of (T := ⟨S256x1, .i32⟩) main_call3_v4) select,
    TRef.reshape (TRef.of (T := ⟨S256x1, .i32⟩) main_call3_v4) (TRef.of (T := ⟨S256x1x1, .i32⟩) main_call3_v5) rfl shapeCasts_S256x1_S256x1x1,
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S256x1x1, .i32⟩) main_call3_v6) (broadcastInDim S256x1x1 ![] bcast_S_S256x1x1),
    TRef.binary (TRef.of (T := ⟨S256x1x1, .i32⟩) main_call3_v5) (TRef.of (T := ⟨S256x1x1, .i32⟩) main_call3_v6) (TRef.of (T := ⟨S256x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S256x1x1, .i32⟩) main_call3_v9) (broadcastInDim S256x1x1 ![0, 1, 2] bcast_S1x1x1_S256x1x1_0_1_2),
    TRef.binary (TRef.of (T := ⟨S256x1x1, .i32⟩) main_call3_v5) (TRef.of (T := ⟨S256x1x1, .i32⟩) main_call3_v9) (TRef.of (T := ⟨S256x1x1, .i1⟩) main_call3_v10) (cmpi .sle),
    TRef.binary (TRef.of (T := ⟨S256x1x1, .i1⟩) main_call3_v7) (TRef.of (T := ⟨S256x1x1, .i1⟩) main_call3_v10) (TRef.of (T := ⟨S256x1x1, .i1⟩) main_call3_v11) andi,
    TRef.nullary (TRef.of (T := ⟨S_, .i1⟩) main_call3_c_3) (constantI S_ 1 1#1),
    TRef.binary (TRef.of (T := ⟨S256x1x1, .i1⟩) main_call3_v11) (TRef.of (T := ⟨S_, .i1⟩) main_call3_c_3) (TRef.of (T := ⟨S256x1, .i1⟩) main_call3_v12) (fun x v => Host.reduce IntOp.andi x v reducesTo_S256x1x1_S256x1_d2 h_S_),
    TRef.binary (TRef.of (T := ⟨S256x8192, .f32⟩) main_v3) (TRef.of (T := ⟨S256x1x1, .i32⟩) main_call3_v5) (TRef.of (T := ⟨S256x1, .f32⟩) main_call3_v13) (fun x i => Host.gather gather_S256x8192_S256x1x1_S256x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S256x1, .f32⟩) main_call3_v14) (broadcastInDim S256x1 ![] bcast_S_S256x1),
    TRef.ternary (TRef.of (T := ⟨S256x1, .i1⟩) main_call3_v12) (TRef.of (T := ⟨S256x1, .f32⟩) main_call3_v13) (TRef.of (T := ⟨S256x1, .f32⟩) main_call3_v14) (TRef.of (T := ⟨S256x1, .f32⟩) main_v8) select,
    reshape main_v8 main_v9 rfl shapeCasts_S256x1_S256 ]

/-- Operations 81–85: the two picks added, summed over the batch and scaled. -/
abbrev opsE : List (HloOp τ sig (Elt F)) :=
  [ binary main_v6 main_v9 main_v10 (addf : (⟨S256, .f32⟩ : BufTy).Contents (Elt F) → (⟨S256, .f32⟩ : BufTy).Contents (Elt F) → (⟨S256, .f32⟩ : BufTy).Contents (Elt F)),
    nullary main_cst (constant S_ .f32 0x00000000#32),
    binary main_v10 main_cst main_v11 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_0 (constant S_ .f32 0xBB000000#32),
    binary main_cst_0 main_v11 main_v12 (mulf : (⟨S_, .f32⟩ : BufTy).Contents (Elt F) → (⟨S_, .f32⟩ : BufTy).Contents (Elt F) → (⟨S_, .f32⟩ : BufTy).Contents (Elt F)) ]

/-- Operations 86–107: the cross-entropy part. -/
abbrev opsG : List (HloOp τ sig (Elt F)) :=
  [ reshape main_arg4 main_v13 rfl shapeCasts_S256x8192x1_S256x8192,
    unary main_v13 main_v14 (Host.log : (⟨S256x8192, .f32⟩ : BufTy).Contents (Elt F) → (⟨S256x8192, .f32⟩ : BufTy).Contents (Elt F)),
    binary main_arg5 main_v14 main_v15 (mulf : (⟨S256x8192, .f32⟩ : BufTy).Contents (Elt F) → (⟨S256x8192, .f32⟩ : BufTy).Contents (Elt F) → (⟨S256x8192, .f32⟩ : BufTy).Contents (Elt F)),
    nullary main_cst_1 (constant S_ .f32 0x3F800000#32),
    unary main_cst_1 main_v16 (broadcastInDim S256x8192 ![] bcast_S_S256x8192 : (⟨S_, .f32⟩ : BufTy).Contents (Elt F) → (⟨S256x8192, .f32⟩ : BufTy).Contents (Elt F)),
    binary main_v16 main_arg5 main_v17 (subf : (⟨S256x8192, .f32⟩ : BufTy).Contents (Elt F) → (⟨S256x8192, .f32⟩ : BufTy).Contents (Elt F) → (⟨S256x8192, .f32⟩ : BufTy).Contents (Elt F)),
    nullary main_cst_2 (constant S_ .f32 0x3F800000#32),
    unary main_cst_2 main_v18 (broadcastInDim S256x8192 ![] bcast_S_S256x8192 : (⟨S_, .f32⟩ : BufTy).Contents (Elt F) → (⟨S256x8192, .f32⟩ : BufTy).Contents (Elt F)),
    binary main_v18 main_v13 main_v19 (subf : (⟨S256x8192, .f32⟩ : BufTy).Contents (Elt F) → (⟨S256x8192, .f32⟩ : BufTy).Contents (Elt F) → (⟨S256x8192, .f32⟩ : BufTy).Contents (Elt F)),
    unary main_v19 main_v20 (Host.log : (⟨S256x8192, .f32⟩ : BufTy).Contents (Elt F) → (⟨S256x8192, .f32⟩ : BufTy).Contents (Elt F)),
    binary main_v17 main_v20 main_v21 (mulf : (⟨S256x8192, .f32⟩ : BufTy).Contents (Elt F) → (⟨S256x8192, .f32⟩ : BufTy).Contents (Elt F) → (⟨S256x8192, .f32⟩ : BufTy).Contents (Elt F)),
    binary main_v15 main_v21 main_v22 (addf : (⟨S256x8192, .f32⟩ : BufTy).Contents (Elt F) → (⟨S256x8192, .f32⟩ : BufTy).Contents (Elt F) → (⟨S256x8192, .f32⟩ : BufTy).Contents (Elt F)),
    nullary main_cst_3 (constant S_ .f32 0x00000000#32),
    binary main_v22 main_cst_3 main_v23 ((fun x v => Host.reduceAdd x v reducesTo_S256x8192_S256_d1 h_S_) : (⟨S256x8192, .f32⟩ : BufTy).Contents (Elt F) → (⟨S_, .f32⟩ : BufTy).Contents (Elt F) → (⟨S256, .f32⟩ : BufTy).Contents (Elt F)),
    unary main_v23 main_v24 (Host.negf : (⟨S256, .f32⟩ : BufTy).Contents (Elt F) → (⟨S256, .f32⟩ : BufTy).Contents (Elt F)),
    nullary main_cst_4 (constant S_ .f32 0x46000000#32),
    unary main_cst_4 main_v25 (broadcastInDim S256 ![] bcast_S_S256 : (⟨S_, .f32⟩ : BufTy).Contents (Elt F) → (⟨S256, .f32⟩ : BufTy).Contents (Elt F)),
    binary main_v24 main_v25 main_v26 (Host.divf : (⟨S256, .f32⟩ : BufTy).Contents (Elt F) → (⟨S256, .f32⟩ : BufTy).Contents (Elt F) → (⟨S256, .f32⟩ : BufTy).Contents (Elt F)),
    nullary main_cst_5 (constant S_ .f32 0x00000000#32),
    binary main_v26 main_cst_5 main_v27 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_6 (constant S_ .f32 0x43800000#32),
    binary main_v27 main_cst_6 main_v28 (Host.divf : (⟨S_, .f32⟩ : BufTy).Contents (Elt F) → (⟨S_, .f32⟩ : BufTy).Contents (Elt F) → (⟨S_, .f32⟩ : BufTy).Contents (Elt F)) ]

/-- Operations 108–112: the two parts weighted and added. -/
abbrev opsH : List (HloOp τ sig (Elt F)) :=
  [ nullary main_cst_7 (constant S_ .f32 0x3F800000#32),
    binary main_cst_7 main_v12 main_v29 (mulf : (⟨S_, .f32⟩ : BufTy).Contents (Elt F) → (⟨S_, .f32⟩ : BufTy).Contents (Elt F) → (⟨S_, .f32⟩ : BufTy).Contents (Elt F)),
    nullary main_cst_8 (constant S_ .f32 0x3F800000#32),
    binary main_cst_8 main_v28 main_v30 (mulf : (⟨S_, .f32⟩ : BufTy).Contents (Elt F) → (⟨S_, .f32⟩ : BufTy).Contents (Elt F) → (⟨S_, .f32⟩ : BufTy).Contents (Elt F)),
    binary main_v29 main_v30 main_v31 (addf : (⟨S_, .f32⟩ : BufTy).Contents (Elt F) → (⟨S_, .f32⟩ : BufTy).Contents (Elt F) → (⟨S_, .f32⟩ : BufTy).Contents (Elt F)) ]

/-- The stretches in order are the whole line. -/
private theorem ops_eq :
    (ops : List (HloOp τ sig (Elt F))) = opsA ++ (opsB ++ (opsC ++ (opsD ++ (opsE ++ (opsG ++ opsH))))) := rfl

/-! ## Each stretch from any contents: what it leaves in the buffers later stretches read -/

set_option maxRecDepth 8192 in
/-- The first stretch leaves the log-softmax of the start logits, a stage of argument 0. -/
private theorem after_A_v1 (W : Valuation τ sig (Elt F)) :
    after (opsA (F := F)) W (Proc.devRef .tc main_v1) = ReadP.val_main_v1 (F := F) (W (Proc.devRef .tc main_arg0)) := by
  after_results_simp
  simp only [ofBuf_toBuf]
  rfl

/-- The first stretch writes none of the other arguments. -/
private theorem after_A_keep (W : Valuation τ sig (Elt F)) :
    after (opsA (F := F)) W (Proc.devRef .tc main_arg1) = W (Proc.devRef .tc main_arg1)
      ∧ after (opsA (F := F)) W (Proc.devRef .tc main_arg2) = W (Proc.devRef .tc main_arg2)
      ∧ after (opsA (F := F)) W (Proc.devRef .tc main_arg3) = W (Proc.devRef .tc main_arg3)
      ∧ after (opsA (F := F)) W (Proc.devRef .tc main_arg4) = W (Proc.devRef .tc main_arg4)
      ∧ after (opsA (F := F)) W (Proc.devRef .tc main_arg5) = W (Proc.devRef .tc main_arg5) := by
  refine ⟨?_, ?_, ?_, ?_, ?_⟩ <;> after_results_simp

set_option maxRecDepth 8192 in
/-- The second stretch leaves the log-softmax of the end logits, a stage of argument 1. -/
private theorem after_B_v3 (W : Valuation τ sig (Elt F)) :
    after (opsB (F := F)) W (Proc.devRef .tc main_v3) = ReadP.val_main_v3 (F := F) (W (Proc.devRef .tc main_arg1)) := by
  after_results_simp
  simp only [ofBuf_toBuf]
  rfl

/-- The second stretch writes neither the first's result nor the arguments still to be read. -/
private theorem after_B_keep (W : Valuation τ sig (Elt F)) :
    after (opsB (F := F)) W (Proc.devRef .tc main_v1) = W (Proc.devRef .tc main_v1)
      ∧ after (opsB (F := F)) W (Proc.devRef .tc main_arg2) = W (Proc.devRef .tc main_arg2)
      ∧ after (opsB (F := F)) W (Proc.devRef .tc main_arg3) = W (Proc.devRef .tc main_arg3)
      ∧ after (opsB (F := F)) W (Proc.devRef .tc main_arg4) = W (Proc.devRef .tc main_arg4)
      ∧ after (opsB (F := F)) W (Proc.devRef .tc main_arg5) = W (Proc.devRef .tc main_arg5) := by
  refine ⟨?_, ?_, ?_, ?_, ?_⟩ <;> after_results_simp

set_option maxRecDepth 8192 in
/-- The third stretch, entered with the start log-softmax in its buffer, leaves the pick at the start positions. -/
private theorem after_C_v6 (W : Valuation τ sig (Elt F)) (x0 : (⟨S256x8192x1, .f32⟩ : BufTy).Contents (Elt F))
    (h1 : W (Proc.devRef .tc main_v1) = ReadP.val_main_v1 (F := F) x0) :
    after (opsC (F := F)) W (Proc.devRef .tc main_v6) = ReadP.val_main_v6 (F := F) x0 (W (Proc.devRef .tc main_arg2)) := by
  after_results_simp
  simp only [ofBuf_toBuf]
  rw [h1]
  rfl

/-- The third stretch writes neither the end log-softmax nor the arguments still to be read. -/
private theorem after_C_keep (W : Valuation τ sig (Elt F)) :
    after (opsC (F := F)) W (Proc.devRef .tc main_v3) = W (Proc.devRef .tc main_v3)
      ∧ after (opsC (F := F)) W (Proc.devRef .tc main_arg3) = W (Proc.devRef .tc main_arg3)
      ∧ after (opsC (F := F)) W (Proc.devRef .tc main_arg4) = W (Proc.devRef .tc main_arg4)
      ∧ after (opsC (F := F)) W (Proc.devRef .tc main_arg5) = W (Proc.devRef .tc main_arg5) := by
  refine ⟨?_, ?_, ?_, ?_⟩ <;> after_results_simp

set_option maxRecDepth 8192 in
/-- The fourth stretch, entered with the end log-softmax in its buffer, leaves the pick at the end positions. -/
private theorem after_D_v9 (W : Valuation τ sig (Elt F)) (x1 : (⟨S256x8192x1, .f32⟩ : BufTy).Contents (Elt F))
    (h3 : W (Proc.devRef .tc main_v3) = ReadP.val_main_v3 (F := F) x1) :
    after (opsD (F := F)) W (Proc.devRef .tc main_v9) = ReadP.val_main_v9 (F := F) x1 (W (Proc.devRef .tc main_arg3)) := by
  after_results_simp
  simp only [ofBuf_toBuf]
  rw [h3]
  rfl

/-- The fourth stretch writes neither the start pick nor the last two arguments. -/
private theorem after_D_keep (W : Valuation τ sig (Elt F)) :
    after (opsD (F := F)) W (Proc.devRef .tc main_v6) = W (Proc.devRef .tc main_v6)
      ∧ after (opsD (F := F)) W (Proc.devRef .tc main_arg4) = W (Proc.devRef .tc main_arg4)
      ∧ after (opsD (F := F)) W (Proc.devRef .tc main_arg5) = W (Proc.devRef .tc main_arg5) := by
  refine ⟨?_, ?_, ?_⟩ <;> after_results_simp

set_option maxRecDepth 8192 in
/-- The fifth stretch, entered with the two picks in their buffers, leaves their scaled batch sum. -/
private theorem after_E_v12 (W : Valuation τ sig (Elt F)) (x0 : (⟨S256x8192x1, .f32⟩ : BufTy).Contents (Elt F)) (x1 : (⟨S256x8192x1, .f32⟩ : BufTy).Contents (Elt F)) (x2 x3 : (⟨S256, .i32⟩ : BufTy).Contents (Elt F))
    (h6 : W (Proc.devRef .tc main_v6) = ReadP.val_main_v6 (F := F) x0 x2) (h9 : W (Proc.devRef .tc main_v9) = ReadP.val_main_v9 (F := F) x1 x3) :
    after (opsE (F := F)) W (Proc.devRef .tc main_v12) = ReadP.val_main_v12 (F := F) x0 x1 x2 x3 := by
  after_results_simp
  rw [h6, h9]
  rfl

/-- The fifth stretch writes neither of the last two arguments. -/
private theorem after_E_keep (W : Valuation τ sig (Elt F)) :
    after (opsE (F := F)) W (Proc.devRef .tc main_arg4) = W (Proc.devRef .tc main_arg4)
      ∧ after (opsE (F := F)) W (Proc.devRef .tc main_arg5) = W (Proc.devRef .tc main_arg5) := by
  refine ⟨?_, ?_⟩ <;> after_results_simp

set_option maxRecDepth 8192 in
/-- The sixth stretch leaves the cross-entropy part, a stage of arguments 4 and 5. -/
private theorem after_G_v28 (W : Valuation τ sig (Elt F)) :
    after (opsG (F := F)) W (Proc.devRef .tc main_v28) = ReadP.val_main_v28 (F := F) (W (Proc.devRef .tc main_arg4)) (W (Proc.devRef .tc main_arg5)) := by
  after_results_simp
  rfl

/-- The sixth stretch does not write the log-probability part. -/
private theorem after_G_keep (W : Valuation τ sig (Elt F)) :
    after (opsG (F := F)) W (Proc.devRef .tc main_v12) = W (Proc.devRef .tc main_v12) := by
  after_results_simp

set_option maxRecDepth 8192 in
/-- The last stretch, entered with the two parts in their buffers, leaves the last stage. -/
private theorem after_H_v31 (W : Valuation τ sig (Elt F)) (x0 : (⟨S256x8192x1, .f32⟩ : BufTy).Contents (Elt F)) (x1 : (⟨S256x8192x1, .f32⟩ : BufTy).Contents (Elt F)) (x2 x3 : (⟨S256, .i32⟩ : BufTy).Contents (Elt F)) (x4 : (⟨S256x8192x1, .f32⟩ : BufTy).Contents (Elt F)) (x5 : (⟨S256x8192, .f32⟩ : BufTy).Contents (Elt F))
    (h12 : W (Proc.devRef .tc main_v12) = ReadP.val_main_v12 (F := F) x0 x1 x2 x3) (h28 : W (Proc.devRef .tc main_v28) = ReadP.val_main_v28 (F := F) x4 x5) :
    after (opsH (F := F)) W (Proc.devRef .tc main_v31) = ReadP.val_main_v31 (F := F) x0 x1 x2 x3 x4 x5 := by
  after_results_simp
  rw [h12, h28]
  rfl

/-! ## The whole line -/

/-- From any contents the line leaves the last stage of the six arguments' contents in the result buffer: the stretches
    in order, each entered with what the ones before it left. -/
private theorem after_ops_v31 (V : Valuation τ sig (Elt F)) :
    after (ops (F := F)) V (Proc.devRef .tc main_v31)
      = ReadP.val_main_v31 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_eq, after_append, after_append, after_append, after_append, after_append, after_append]
  -- the first stretch
  have a1 := after_A_v1 V
  obtain ⟨ka1, ka2, ka3, ka4, ka5⟩ := after_A_keep V
  generalize after (opsA (F := F)) V = V1 at a1 ka1 ka2 ka3 ka4 ka5 ⊢
  -- the second
  have b3 := after_B_v3 V1
  obtain ⟨kb1, kb2, kb3, kb4, kb5⟩ := after_B_keep V1
  rw [ka1] at b3
  rw [a1] at kb1
  rw [ka2] at kb2
  rw [ka3] at kb3
  rw [ka4] at kb4
  rw [ka5] at kb5
  generalize after (opsB (F := F)) V1 = V2 at b3 kb1 kb2 kb3 kb4 kb5 ⊢
  -- the third
  have c6 := after_C_v6 V2 _ kb1
  obtain ⟨kc3, kc3', kc4, kc5⟩ := after_C_keep V2
  rw [kb2] at c6
  rw [b3] at kc3
  rw [kb3] at kc3'
  rw [kb4] at kc4
  rw [kb5] at kc5
  generalize after (opsC (F := F)) V2 = V3 at c6 kc3 kc3' kc4 kc5 ⊢
  -- the fourth
  have d9 := after_D_v9 V3 _ kc3
  obtain ⟨kd6, kd4, kd5⟩ := after_D_keep V3
  rw [kc3'] at d9
  rw [c6] at kd6
  rw [kc4] at kd4
  rw [kc5] at kd5
  generalize after (opsD (F := F)) V3 = V4 at d9 kd6 kd4 kd5 ⊢
  -- the fifth
  have e12 := after_E_v12 V4 _ _ _ _ kd6 d9
  obtain ⟨ke4, ke5⟩ := after_E_keep V4
  rw [kd4] at ke4
  rw [kd5] at ke5
  generalize after (opsE (F := F)) V4 = V5 at e12 ke4 ke5 ⊢
  -- the sixth
  have g28 := after_G_v28 V5
  have kg12 := after_G_keep V5
  rw [ke4, ke5] at g28
  rw [e12] at kg12
  generalize after (opsG (F := F)) V5 = V6 at g28 kg12 ⊢
  -- the last
  exact after_H_v31 V6 _ _ _ _ _ _ kg12 g28

set_option maxRecDepth 8192 in
set_option maxHeartbeats 44800000 in
/-- On every device, from any memory with zero counters: every weakly fair execution of @main terminates with the
    result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = Cert.ReferenceIdeal.ReadP.val_main_v31 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v31).trans (after_ops_v31 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunP

end
-- ==== Proof.LibHostRows.lean ====
/-
  Host layout operations and the host's row sum read at an index, for arrays of rows: a vector made a column, a
  scalar broadcast anywhere, a column broadcast along the rows, a vector made a row, a row broadcast down the
  rows, and the sum of a matrix's rows. Stated for any extents.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

/-- The host's sum over the second axis of an `a × b` array, read at row `r`: the initial value plus the sum of
    the row. -/
theorem hostReduceAdd_rows_apply {a b : ℕ} {φ : FTy} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (r : Fin a) :
    Host.reduceAdd x init h hu (ix1 r) = init ix0 + ∑ k : Fin b, x (ix2 r k) := by
  have hR : (⟨2, ![a, b]⟩ : Shape).Reduces [1] ⟨1, ![a]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext c
  match c with
  | ⟨0, _⟩ => rfl
  | ⟨1, _⟩ => rfl

/-- A vector of length `a` broadcast to an `a × 1` column reads its own entry. -/
theorem broadcastInDim_vec_col_apply {a : ℕ} {α : Type} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ =>
    show r.val = if a = 1 then 0 else r.val
    split
    · have := r.isLt; omega
    · rfl

/-- A scalar broadcast to any shape reads the scalar. -/
theorem broadcastInDim_scalar_apply {t : Shape} {α : Type} (v : (⟨0, ![]⟩ : Shape).Idx → α)
    (h : (⟨0, ![]⟩ : Shape).BroadcastsInDim t (![] : Fin 0 → Fin t.rank)) (j : t.Idx) :
    broadcastInDim t ![] h v j = v ix0 := by
  exact broadcastInDim_apply _ h v j ix0 fun ax => ax.elim0

/-- An `a × 1` column broadcast to `a × b` reads the column's entry of the row. -/
theorem broadcastInDim_col_apply {a b : ℕ} {α : Type} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- A vector of length `b` broadcast to a `1 × b` row reads its own entry. -/
theorem broadcastInDim_vec_row_apply {b : ℕ} {α : Type} (v : (⟨1, ![b]⟩ : Shape).Idx → α)
    (h : (⟨1, ![b]⟩ : Shape).BroadcastsInDim ⟨2, ![1, b]⟩ (![1] : Fin 1 → Fin 2)) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ =>
    show k.val = if b = 1 then 0 else k.val
    split
    · have := k.isLt; omega
    · rfl

/-- A `1 × b` row broadcast to `a × b` reads the row's entry of the column. -/
theorem broadcastInDim_row_apply {a b : ℕ} {α : Type} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

end Cert.LibHostRows

end
-- ==== Proof.RefLp.lean ====
/-
  The reference's log-probability part: per batch row the log-softmax of the logits picked at the position, summed over the batch and scaled.
-/
import proofs.«409958_j6382321402277_3_alg».proof.Proof.RefRead
import proofs.«409958_j6382321402277_3_alg».proof.Proof.Spec
import proofs.«409958_j6382321402277_3_alg».proof.Proof.LibHostRows
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Idealize.ShloMosaic.Lib.StableHlo.Predicate

noncomputable section

namespace Cert.Combo.Ref

open Idealize.ShloMosaic Idealize.ShloMosaic.ValueIdx Cert.ReferenceIdeal Cert.ReferenceIdeal.ReadP Cert.Combo

/-! ## Two folds over one axis and the gather, over the program's literal shapes -/

/-- The host's maximum over the lanes, at row `b`: the fold of `max` over the row from the initial value. -/
private theorem reduce_max_row (y : FVec Ideal S256x8192 .f32) (init : FVec Ideal S_ .f32)
    (h' : S256x8192.ReducesTo [1] S256) (hu : 0 < S_.numel) (b : Fin 256) :
    Host.reduce FloatOps.maximumf y init h' hu (ix1 b)
      = (Finset.univ : Finset (Fin 8192)).fold max (init ix0) (fun k => y (ix2 b k)) := by
  have h : S256x8192.Reduces [1] S256 := by decide
  rw [Host.reduce_eq_fold_single FloatOps.maximumf y init h' h hu, eq_ix0 (Shape.Idx.first hu)]
  have hf : (y ∘ h.lift (ix1 b)) = fun k : Fin 8192 => y (ix2 b k) := funext fun k => congrArg y (by
    funext c; apply Fin.ext
    match c with
    | ⟨0, _⟩ => rfl
    | ⟨1, _⟩ => rfl)
  exact congrArg (fun f => Finset.fold max (init ix0) f (Finset.univ : Finset (Fin 8192))) hf

/-- The host's conjunction over an axis of extent one, at row `b`: the initial bit and the one element. -/
private theorem reduce_and_one (c : IVec S256x1x1 1) (init : IVec S_ 1)
    (h' : S256x1x1.ReducesTo [2] S256x1) (hu : 0 < S_.numel) (b : Fin 256) :
    Host.reduce IntOp.andi c init h' hu (ix2 b (0 : Fin 1))
      = IntOp.andi (c (ix3 b (0 : Fin 1) (0 : Fin 1))) (init ix0) := by
  have h : S256x1x1.Reduces [2] S256x1 := by decide
  rw [Host.reduce_eq_fold_single IntOp.andi c init h' h hu, eq_ix0 (Shape.Idx.first hu)]
  have hf : (c ∘ h.lift (ix2 b (0 : Fin 1))) = fun _ : Fin 1 => c (ix3 b (0 : Fin 1) (0 : Fin 1)) :=
    funext fun k => congrArg c (by
      funext a; apply Fin.ext
      match a with
      | ⟨0, _⟩ => rfl
      | ⟨1, _⟩ => rfl
      | ⟨2, _⟩ => exact Nat.lt_one_iff.mp k.isLt)
  refine (congrArg (fun f => Finset.fold IntOp.andi (init ix0) f (Finset.univ : Finset (Fin 1))) hf).trans ?_
  rw [Finset.univ_unique, Finset.fold_singleton]

/-- The gather along the lanes with one start index per row, at row `b`: the operand at row `b` and at the lane
    the row's start index names, read signed and clamped into the row. -/
private theorem gather_row {α : Type} (y : S256x8192.Idx → α) (idx : IVec S256x1x1 32) (b : Fin 256) :
    Host.gather gather_S256x8192_S256x1x1_S256x1_n_1_0_0_1_2_11 y idx (ix2 b (0 : Fin 1))
      = y (ix2 b ⟨min (idx (ix3 b (0 : Fin 1) (0 : Fin 1))).toInt.toNat 8191, by omega⟩) := by
  unfold Host.gather
  refine congrArg y ?_
  funext a
  refine Fin.ext ?_
  match a with
  | ⟨0, h0⟩ =>
    have hm : (⟨0, h0⟩ : Fin S256x8192.rank) ∈ gather_S256x8192_S256x1x1_S256x1_n_1_0_0_1_2_11.operandBatchingDims :=
      List.mem_singleton.mpr rfl
    show gather_S256x8192_S256x1x1_S256x1_n_1_0_0_1_2_11.start (ix2 b (0 : Fin 1)) idx ⟨0, h0⟩
      + gather_S256x8192_S256x1x1_S256x1_n_1_0_0_1_2_11.batchCoord (ix2 b (0 : Fin 1)) ⟨0, h0⟩
      + gather_S256x8192_S256x1x1_S256x1_n_1_0_0_1_2_11.offCoord (ix2 b (0 : Fin 1)) ⟨0, h0⟩ = b.val
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨1, h1⟩ =>
    have hm : (⟨1, h1⟩ : Fin S256x8192.rank) ∈ gather_S256x8192_S256x1x1_S256x1_n_1_0_0_1_2_11.startIndexMap :=
      List.mem_singleton.mpr rfl
    have hc : (⟨1, h1⟩ : Fin S256x8192.rank) ∈ gather_S256x8192_S256x1x1_S256x1_n_1_0_0_1_2_11.collapsedSliceDims :=
      List.mem_singleton.mpr rfl
    have hb : (⟨1, h1⟩ : Fin S256x8192.rank) ∉ gather_S256x8192_S256x1x1_S256x1_n_1_0_0_1_2_11.operandBatchingDims :=
      fun h => absurd (congrArg Fin.val (List.mem_singleton.mp h)) Nat.one_ne_zero
    show gather_S256x8192_S256x1x1_S256x1_n_1_0_0_1_2_11.start (ix2 b (0 : Fin 1)) idx ⟨1, h1⟩
      + gather_S256x8192_S256x1x1_S256x1_n_1_0_0_1_2_11.batchCoord (ix2 b (0 : Fin 1)) ⟨1, h1⟩
      + gather_S256x8192_S256x1x1_S256x1_n_1_0_0_1_2_11.offCoord (ix2 b (0 : Fin 1)) ⟨1, h1⟩
        = min (idx (ix3 b (0 : Fin 1) (0 : Fin 1))).toInt.toNat 8191
    rw [GatherDims.batchCoord_eq_zero _ _ _ hb,
      GatherDims.offCoord_eq_zero _ _ _ (fun h => ((GatherDims.mem_sKept _ _).mp h).1 hc)]
    simp only [Nat.add_zero]
    unfold GatherDims.start
    rw [dif_pos hm]
    have hsi : gather_S256x8192_S256x1x1_S256x1_n_1_0_0_1_2_11.siIdx (ix2 b (0 : Fin 1))
        ⟨List.idxOf (⟨1, h1⟩ : Fin S256x8192.rank) gather_S256x8192_S256x1x1_S256x1_n_1_0_0_1_2_11.startIndexMap,
          List.idxOf_lt_length_iff.2 hm⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- The same with the lane named: when the clamped start index of row `b` is `n`, the gather reads lane `n` of row `b`. -/
private theorem gather_row_of {α : Type} (y : S256x8192.Idx → α) (idx : IVec S256x1x1 32) (b : Fin 256) (n : Fin 8192)
    (hn : min (idx (ix3 b (0 : Fin 1) (0 : Fin 1))).toInt.toNat 8191 = n.val) :
    Host.gather gather_S256x8192_S256x1x1_S256x1_n_1_0_0_1_2_11 y idx (ix2 b (0 : Fin 1)) = y (ix2 b n) :=
  (gather_row y idx b).trans (congrArg (fun m : Fin 8192 => y (ix2 b m)) (Fin.ext hn))

/-! ## The start side -/

/-- The log-softmax of argument `x0` at row `b`, lane `k`: the entry less the row's maximum less the logarithm of the
    sum of the exponentials of the row shifted by its maximum. -/
private theorem lsm_x0_apply (x0 : (⟨S256x8192x1, .f32⟩ : BufTy).Contents (Elt Ideal)) (b : Fin 256) (k : Fin 8192) :
    val_main_v1 (F := Ideal) x0 (ix2 b k) = rows3 x0 b k - rowMax (rows3 x0 b) - lse (rows3 x0 b) := by
  -- the argument made a matrix reads the argument's row
  have e0 : ∀ k' : Fin 8192, val_main_v0 (F := Ideal) x0 (ix2 b k') = rows3 x0 b k' := by
    intro k'
    rw [val_main_v0_apply]
    unfold rows3
    refine congrArg x0 ?_
    funext a; apply Fin.ext
    match a with
    | ⟨0, _⟩ => show (b.val * 8192 + k'.val) / 8192 = b.val; have := k'.isLt; omega
    | ⟨1, _⟩ => show (b.val * 8192 + k'.val) / 1 % 8192 = k'.val; have := k'.isLt; omega
    | ⟨2, _⟩ => rfl
  -- the row maximum: the maximum of −∞ and the fold from −∞ is the fold
  have eM : val_main_call0_v2 (F := Ideal) x0 (ix1 b) = rowMax (rows3 x0 b) := by
    rw [val_main_call0_v2_apply, val_main_call0_v1_apply, val_main_call0_cst_0_apply]
    unfold val_main_call0_v0
    rw [reduce_max_row, show (fun k' : Fin 8192 => val_main_v0 (F := Ideal) x0 (ix2 b k')) = rows3 x0 b from funext e0]
    show max wNegInf (Finset.fold max wNegInf (rows3 x0 b) Finset.univ) = rowMax (rows3 x0 b)
    unfold rowMax
    exact max_eq_right ((Finset.le_fold_max _).2 (Or.inl le_rfl))
  have e4 : ∀ k' : Fin 8192, val_main_call0_v4 (F := Ideal) x0 (ix2 b k') = rowMax (rows3 x0 b) := by
    intro k'
    rw [val_main_call0_v4_apply,
      show idx_main_call0_v4 (ix2 b k') = ix2 b (0 : Fin 1) from
        funext fun a => (match a with | ⟨0, _⟩ => rfl | ⟨1, _⟩ => rfl),
      val_main_call0_v3_apply,
      show idx_main_call0_v3 (ix2 b (0 : Fin 1)) = ix1 b from funext fun a => (match a with | ⟨0, _⟩ => rfl), eM]
  have e5 : ∀ k' : Fin 8192, val_main_call0_v5 (F := Ideal) x0 (ix2 b k') = rows3 x0 b k' - rowMax (rows3 x0 b) := by
    intro k'
    rw [val_main_call0_v5_apply, e0, e4]
    rfl
  have e7 : val_main_call0_v7 (F := Ideal) x0 (ix1 b)
      = ∑ k' : Fin 8192, Ideal.exp (rows3 x0 b k' - rowMax (rows3 x0 b)) := by
    rw [val_main_call0_v7_apply, val_main_call0_cst_1_apply]
    show Ideal.ofBits .f32 0x00000000#32 + _ = _
    rw [Ideal.ofBits_zero_f32, zero_add]
    refine Finset.sum_congr rfl fun k' _ => ?_
    rw [show idx_main_call0_v7 (ix1 b) k' = ix2 b k' from
        funext fun a => (match a with | ⟨0, _⟩ => rfl | ⟨1, _⟩ => rfl),
      val_main_call0_v6_apply, e5]
    rfl
  have e10 : val_main_call0_v10 (F := Ideal) x0 (ix2 b k) = lse (rows3 x0 b) := by
    rw [val_main_call0_v10_apply,
      show idx_main_call0_v10 (ix2 b k) = ix2 b (0 : Fin 1) from
        funext fun a => (match a with | ⟨0, _⟩ => rfl | ⟨1, _⟩ => rfl),
      val_main_call0_v9_apply, val_main_call0_v8_apply,
      show idx_main_call0_v8 (ix2 b (0 : Fin 1)) = ix1 b from funext fun a => (match a with | ⟨0, _⟩ => rfl), e7]
    rfl
  rw [val_main_v1_apply, e5, e10]
  rfl

/-- A position word of argument `x2` that names a lane is not negative read signed, so the normalised start index of
    row `b` is the word itself. -/
private theorem pos_x2_apply (x2 : (⟨S256, .i32⟩ : BufTy).Contents (Elt Ideal)) (b : Fin 256)
    (h : (word1 x2 b).toNat < 8192) :
    val_main_call2_v5 (F := Ideal) x2 (ix3 b (0 : Fin 1) (0 : Fin 1)) = word1 x2 b := by
  have e4 : val_main_v4 (F := Ideal) x2 (ix2 b (0 : Fin 1)) = word1 x2 b := by
    rw [val_main_v4_apply]
    unfold word1
    exact congrArg x2 (funext fun a => match a with | ⟨0, _⟩ => rfl)
  have hs : IntOp.cmpi .slt (word1 x2 b) 0#32 ≠ 1#1 := by
    intro h1
    have h0 := (StableHlo.Predicate.slt_iff_toNat (a := word1 x2 b) (b := 0#32) (by omega) (by decide)).mp h1
    exact absurd h0 (Nat.not_lt_zero _)
  rw [val_main_call2_v5_apply,
    show idx_main_call2_v5 (ix3 b (0 : Fin 1) (0 : Fin 1)) = ix2 b (0 : Fin 1) from
      funext fun a => (match a with
        | ⟨0, _⟩ => Fin.ext (show ((b.val * 1 + 0) * 1 + 0) / 1 = b.val by omega)
        | ⟨1, _⟩ => rfl),
    val_main_call2_v4_apply, val_main_call2_v1_apply, e4, val_main_call2_v0_apply, val_main_call2_c_apply,
    eq_zero_of_ne_one hs, select_zero]

/-- The in-range test of row `b` holds when the position word names a lane: the word is at least 0 and at most 8191
    read signed, and the conjunction over the axis of extent one is that one bit. -/
private theorem inrange_x2 (x2 : (⟨S256, .i32⟩ : BufTy).Contents (Elt Ideal)) (b : Fin 256)
    (h : (word1 x2 b).toNat < 8192) :
    val_main_call2_v12 (F := Ideal) x2 (ix2 b (0 : Fin 1)) = 1#1 := by
  have h1 : IntOp.cmpi .sge (word1 x2 b) 0#32 = 1#1 :=
    (StableHlo.Predicate.sge_iff_toNat (a := word1 x2 b) (b := 0#32) (by omega) (by decide)).mpr (Nat.zero_le _)
  have h2 : IntOp.cmpi .sle (word1 x2 b) 8191#32 = 1#1 :=
    (StableHlo.Predicate.sle_iff_toNat (a := word1 x2 b) (b := 8191#32) (by omega) (by decide)).mpr
      (by show (word1 x2 b).toNat ≤ 8191; omega)
  unfold val_main_call2_v12
  rw [reduce_and_one, val_main_call2_v11_apply, val_main_call2_v7_apply, val_main_call2_v10_apply, pos_x2_apply x2 b h,
    val_main_call2_v6_apply, val_main_call2_c_2_apply, val_main_call2_v9_apply, val_main_call2_v8_apply,
    val_main_call2_c_1_apply, h1, h2]
  rfl

/-- Row `b` of the start side: the log-softmax of the row, gathered at the start position, when every start position names a lane. -/
theorem ref_pick0 (x0 : (⟨S256x8192x1, .f32⟩ : BufTy).Contents (Elt Ideal)) (x2 : (⟨S256, .i32⟩ : BufTy).Contents (Elt Ideal)) (h2 : ∀ b, (word1 x2 b).toNat < 8192) (b : Fin 256) :
    val_main_v6 (F := Ideal) x0 x2 (ix1 b) = lpR (rows3 x0 b) (word1 x2 b) := by
  have h := h2 b
  -- the clamped start index is the lane the word names
  have hn : min (val_main_call2_v5 (F := Ideal) x2 (ix3 b (0 : Fin 1) (0 : Fin 1))).toInt.toNat 8191
      = (⟨(word1 x2 b).toNat, h⟩ : Fin 8192).val := by
    rw [pos_x2_apply x2 b h, StableHlo.Predicate.toInt_eq_toNat_of_lt (by omega), Int.toNat_natCast]
    exact Nat.min_eq_left (by omega)
  rw [val_main_v6_apply,
    show idx_main_v6 (ix1 b) = ix2 b (0 : Fin 1) from
      funext fun a => (match a with
        | ⟨0, _⟩ => Fin.ext (Nat.div_one _)
        | ⟨1, _⟩ => rfl),
    val_main_v5_apply, inrange_x2 x2 b h, select_one]
  unfold val_main_call2_v13
  rw [gather_row_of _ _ b ⟨(word1 x2 b).toNat, h⟩ hn, lsm_x0_apply]
  unfold lpR rowAt
  rw [dif_pos h]

/-! ## The end side -/

/-- The log-softmax of argument `x1` at row `b`, lane `k`: the entry less the row's maximum less the logarithm of the
    sum of the exponentials of the row shifted by its maximum. -/
private theorem lsm_x1_apply (x1 : (⟨S256x8192x1, .f32⟩ : BufTy).Contents (Elt Ideal)) (b : Fin 256) (k : Fin 8192) :
    val_main_v3 (F := Ideal) x1 (ix2 b k) = rows3 x1 b k - rowMax (rows3 x1 b) - lse (rows3 x1 b) := by
  -- the argument made a matrix reads the argument's row
  have e0 : ∀ k' : Fin 8192, val_main_v2 (F := Ideal) x1 (ix2 b k') = rows3 x1 b k' := by
    intro k'
    rw [val_main_v2_apply]
    unfold rows3
    refine congrArg x1 ?_
    funext a; apply Fin.ext
    match a with
    | ⟨0, _⟩ => show (b.val * 8192 + k'.val) / 8192 = b.val; have := k'.isLt; omega
    | ⟨1, _⟩ => show (b.val * 8192 + k'.val) / 1 % 8192 = k'.val; have := k'.isLt; omega
    | ⟨2, _⟩ => rfl
  -- the row maximum: the maximum of −∞ and the fold from −∞ is the fold
  have eM : val_main_call1_v2 (F := Ideal) x1 (ix1 b) = rowMax (rows3 x1 b) := by
    rw [val_main_call1_v2_apply, val_main_call1_v1_apply, val_main_call1_cst_0_apply]
    unfold val_main_call1_v0
    rw [reduce_max_row, show (fun k' : Fin 8192 => val_main_v2 (F := Ideal) x1 (ix2 b k')) = rows3 x1 b from funext e0]
    show max wNegInf (Finset.fold max wNegInf (rows3 x1 b) Finset.univ) = rowMax (rows3 x1 b)
    unfold rowMax
    exact max_eq_right ((Finset.le_fold_max _).2 (Or.inl le_rfl))
  have e4 : ∀ k' : Fin 8192, val_main_call1_v4 (F := Ideal) x1 (ix2 b k') = rowMax (rows3 x1 b) := by
    intro k'
    rw [val_main_call1_v4_apply,
      show idx_main_call1_v4 (ix2 b k') = ix2 b (0 : Fin 1) from
        funext fun a => (match a with | ⟨0, _⟩ => rfl | ⟨1, _⟩ => rfl),
      val_main_call1_v3_apply,
      show idx_main_call1_v3 (ix2 b (0 : Fin 1)) = ix1 b from funext fun a => (match a with | ⟨0, _⟩ => rfl), eM]
  have e5 : ∀ k' : Fin 8192, val_main_call1_v5 (F := Ideal) x1 (ix2 b k') = rows3 x1 b k' - rowMax (rows3 x1 b) := by
    intro k'
    rw [val_main_call1_v5_apply, e0, e4]
    rfl
  have e7 : val_main_call1_v7 (F := Ideal) x1 (ix1 b)
      = ∑ k' : Fin 8192, Ideal.exp (rows3 x1 b k' - rowMax (rows3 x1 b)) := by
    rw [val_main_call1_v7_apply, val_main_call1_cst_1_apply]
    show Ideal.ofBits .f32 0x00000000#32 + _ = _
    rw [Ideal.ofBits_zero_f32, zero_add]
    refine Finset.sum_congr rfl fun k' _ => ?_
    rw [show idx_main_call1_v7 (ix1 b) k' = ix2 b k' from
        funext fun a => (match a with | ⟨0, _⟩ => rfl | ⟨1, _⟩ => rfl),
      val_main_call1_v6_apply, e5]
    rfl
  have e10 : val_main_call1_v10 (F := Ideal) x1 (ix2 b k) = lse (rows3 x1 b) := by
    rw [val_main_call1_v10_apply,
      show idx_main_call1_v10 (ix2 b k) = ix2 b (0 : Fin 1) from
        funext fun a => (match a with | ⟨0, _⟩ => rfl | ⟨1, _⟩ => rfl),
      val_main_call1_v9_apply, val_main_call1_v8_apply,
      show idx_main_call1_v8 (ix2 b (0 : Fin 1)) = ix1 b from funext fun a => (match a with | ⟨0, _⟩ => rfl), e7]
    rfl
  rw [val_main_v3_apply, e5, e10]
  rfl

/-- A position word of argument `x3` that names a lane is not negative read signed, so the normalised start index of
    row `b` is the word itself. -/
private theorem pos_x3_apply (x3 : (⟨S256, .i32⟩ : BufTy).Contents (Elt Ideal)) (b : Fin 256)
    (h : (word1 x3 b).toNat < 8192) :
    val_main_call3_v5 (F := Ideal) x3 (ix3 b (0 : Fin 1) (0 : Fin 1)) = word1 x3 b := by
  have e4 : val_main_v7 (F := Ideal) x3 (ix2 b (0 : Fin 1)) = word1 x3 b := by
    rw [val_main_v7_apply]
    unfold word1
    exact congrArg x3 (funext fun a => match a with | ⟨0, _⟩ => rfl)
  have hs : IntOp.cmpi .slt (word1 x3 b) 0#32 ≠ 1#1 := by
    intro h1
    have h0 := (StableHlo.Predicate.slt_iff_toNat (a := word1 x3 b) (b := 0#32) (by omega) (by decide)).mp h1
    exact absurd h0 (Nat.not_lt_zero _)
  rw [val_main_call3_v5_apply,
    show idx_main_call3_v5 (ix3 b (0 : Fin 1) (0 : Fin 1)) = ix2 b (0 : Fin 1) from
      funext fun a => (match a with
        | ⟨0, _⟩ => Fin.ext (show ((b.val * 1 + 0) * 1 + 0) / 1 = b.val by omega)
        | ⟨1, _⟩ => rfl),
    val_main_call3_v4_apply, val_main_call3_v1_apply, e4, val_main_call3_v0_apply, val_main_call3_c_apply,
    eq_zero_of_ne_one hs, select_zero]

/-- The in-range test of row `b` holds when the position word names a lane: the word is at least 0 and at most 8191
    read signed, and the conjunction over the axis of extent one is that one bit. -/
private theorem inrange_x3 (x3 : (⟨S256, .i32⟩ : BufTy).Contents (Elt Ideal)) (b : Fin 256)
    (h : (word1 x3 b).toNat < 8192) :
    val_main_call3_v12 (F := Ideal) x3 (ix2 b (0 : Fin 1)) = 1#1 := by
  have h1 : IntOp.cmpi .sge (word1 x3 b) 0#32 = 1#1 :=
    (StableHlo.Predicate.sge_iff_toNat (a := word1 x3 b) (b := 0#32) (by omega) (by decide)).mpr (Nat.zero_le _)
  have h2 : IntOp.cmpi .sle (word1 x3 b) 8191#32 = 1#1 :=
    (StableHlo.Predicate.sle_iff_toNat (a := word1 x3 b) (b := 8191#32) (by omega) (by decide)).mpr
      (by show (word1 x3 b).toNat ≤ 8191; omega)
  unfold val_main_call3_v12
  rw [reduce_and_one, val_main_call3_v11_apply, val_main_call3_v7_apply, val_main_call3_v10_apply, pos_x3_apply x3 b h,
    val_main_call3_v6_apply, val_main_call3_c_2_apply, val_main_call3_v9_apply, val_main_call3_v8_apply,
    val_main_call3_c_1_apply, h1, h2]
  rfl

/-- Row `b` of the end side, likewise. -/
theorem ref_pick1 (x1 : (⟨S256x8192x1, .f32⟩ : BufTy).Contents (Elt Ideal)) (x3 : (⟨S256, .i32⟩ : BufTy).Contents (Elt Ideal)) (h3 : ∀ b, (word1 x3 b).toNat < 8192) (b : Fin 256) :
    val_main_v9 (F := Ideal) x1 x3 (ix1 b) = lpR (rows3 x1 b) (word1 x3 b) := by
  have h := h3 b
  -- the clamped start index is the lane the word names
  have hn : min (val_main_call3_v5 (F := Ideal) x3 (ix3 b (0 : Fin 1) (0 : Fin 1))).toInt.toNat 8191
      = (⟨(word1 x3 b).toNat, h⟩ : Fin 8192).val := by
    rw [pos_x3_apply x3 b h, StableHlo.Predicate.toInt_eq_toNat_of_lt (by omega), Int.toNat_natCast]
    exact Nat.min_eq_left (by omega)
  rw [val_main_v9_apply,
    show idx_main_v9 (ix1 b) = ix2 b (0 : Fin 1) from
      funext fun a => (match a with
        | ⟨0, _⟩ => Fin.ext (Nat.div_one _)
        | ⟨1, _⟩ => rfl),
    val_main_v8_apply, inrange_x3 x3 b h, select_one]
  unfold val_main_call3_v13
  rw [gather_row_of _ _ b ⟨(word1 x3 b).toNat, h⟩ hn, lsm_x1_apply]
  unfold lpR rowAt
  rw [dif_pos h]

/-! ## The batch -/

/-- A sum over the indices of a vector is the sum over its coordinate. -/
private theorem sum_idx1 {M : Type} [AddCommMonoid M] {n : ℕ} (f : (⟨1, ![n]⟩ : Shape).Idx → M) :
    ∑ j, f j = ∑ b : Fin n, f (ix1 b) :=
  (Fintype.sum_equiv
    { toFun := fun b : Fin n => (ix1 b : (⟨1, ![n]⟩ : Shape).Idx), invFun := fun j => j 0,
      left_inv := fun _ => rfl, right_inv := fun j => (eq_ix1 j).symm } _ _ fun _ => rfl).symm

/-- The scaled sum over the batch of the two picked log-probabilities. -/
theorem ref_lp (x0 x1 : (⟨S256x8192x1, .f32⟩ : BufTy).Contents (Elt Ideal)) (x2 x3 : (⟨S256, .i32⟩ : BufTy).Contents (Elt Ideal)) (h2 : ∀ b, (word1 x2 b).toNat < 8192) (h3 : ∀ b, (word1 x3 b).toNat < 8192)
    (i : S_.Idx) :
    val_main_v12 (F := Ideal) x0 x1 x2 x3 i
      = wLp * (wZero + ∑ b : Fin 256, (lpR (rows3 x0 b) (word1 x2 b) + lpR (rows3 x1 b) (word1 x3 b))) := by
  rw [val_main_v12_apply, val_main_cst_0_apply, val_main_v11_apply, val_main_cst_apply, sum_idx1]
  refine congrArg (fun z => wLp * (wZero + z)) (Finset.sum_congr rfl fun b _ => ?_)
  rw [val_main_v10_apply, ref_pick0 x0 x2 h2 b, ref_pick1 x1 x3 h3 b]
  rfl

end Cert.Combo.Ref

end
-- ==== Proof.RefBce.lean ====
/-
  The reference's cross-entropy part: per batch row the negated sum of the tokens' terms divided by the token count, averaged over the batch.
-/
import proofs.«409958_j6382321402277_3_alg».proof.Proof.RefRead
import proofs.«409958_j6382321402277_3_alg».proof.Proof.Spec
import proofs.«409958_j6382321402277_3_alg».proof.Proof.LibHostRows
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.Combo.Ref

open Idealize.ShloMosaic Idealize.ShloMosaic.ValueIdx Cert.ReferenceIdeal Cert.ReferenceIdeal.ReadP Cert.Combo

/-- A rank-1 index set is its one coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reshape [256, 8192, 1] → [256, 8192] reads row b, token k at (b, k, 0): (8192 b + k) / 8192 = b and
    (8192 b + k) mod 8192 = k. -/
private theorem idx_v13_at (b : Fin 256) (k : Fin 8192) : idx_main_v13 (ix2 b k) = ix3 b k (0 : Fin 1) := by
  funext a
  apply Fin.ext
  match a with
  | ⟨0, _⟩ =>
    show (b.val * 8192 + k.val) / 8192 = b.val
    have := b.isLt
    have := k.isLt
    omega
  | ⟨1, _⟩ =>
    show (b.val * 8192 + k.val) / 1 % 8192 = k.val
    have := k.isLt
    omega
  | ⟨2, _⟩ => rfl

/-- The row sum's k-th operand index of row b is (b, k). -/
private theorem idx_v23_at (b : Fin 256) (k : Fin 8192) : idx_main_v23 (ix1 b) k = ix2 b k := by
  funext a
  match a with
  | ⟨0, _⟩ => rfl
  | ⟨1, _⟩ => rfl

/-- One token's term: tag · log p + (1 − tag) · log (1 − p), with p read through the reshape. -/
private theorem v22_at (x4 : (⟨S256x8192x1, .f32⟩ : BufTy).Contents (Elt Ideal)) (x5 : (⟨S256x8192, .f32⟩ : BufTy).Contents (Elt Ideal))
    (b : Fin 256) (k : Fin 8192) :
    val_main_v22 (F := Ideal) x4 x5 (ix2 b k) = bce (rows3 x4 b k) (rows2 x5 b k) := by
  rw [val_main_v22_apply, val_main_v15_apply, val_main_v21_apply, val_main_v14_apply, val_main_v17_apply, val_main_v20_apply,
    val_main_v19_apply, val_main_v16_apply, val_main_v18_apply, val_main_cst_1_apply, val_main_cst_2_apply, val_main_v13_apply,
    idx_v13_at]
  simp only [Ideal.addf_def, Ideal.subf_def, Ideal.mulf_def, Ideal.hostUnary_log_def, Ideal.ofBits_def]
  rfl

/-- One batch row: the negated sum of its tokens' terms, divided by the token count. -/
private theorem v26_at (x4 : (⟨S256x8192x1, .f32⟩ : BufTy).Contents (Elt Ideal)) (x5 : (⟨S256x8192, .f32⟩ : BufTy).Contents (Elt Ideal))
    (b : Fin 256) :
    val_main_v26 (F := Ideal) x4 x5 (ix1 b)
      = Ideal.div (-(wZero + ∑ k : Fin 8192, bce (rows3 x4 b k) (rows2 x5 b k))) wS := by
  rw [val_main_v26_apply, val_main_v24_apply, val_main_v23_apply, val_main_v25_apply, val_main_cst_4_apply, val_main_cst_3_apply]
  simp only [idx_v23_at, v22_at, Ideal.hostDivf_def, Ideal.hostNegf_def, Ideal.negf_def, Ideal.ofBits_def]

/-- The batch mean of the rows' negated, divided sums. -/
theorem ref_bce (x4 : (⟨S256x8192x1, .f32⟩ : BufTy).Contents (Elt Ideal)) (x5 : (⟨S256x8192, .f32⟩ : BufTy).Contents (Elt Ideal)) (i : S_.Idx) :
    val_main_v28 (F := Ideal) x4 x5 i
      = Ideal.div (wZero + ∑ b : Fin 256, Ideal.div (-(wZero + ∑ k : Fin 8192, bce (rows3 x4 b k) (rows2 x5 b k))) wS) wB := by
  rw [val_main_v28_apply, val_main_v27_apply, val_main_cst_6_apply, val_main_cst_5_apply, sum_idx1]
  simp only [v26_at, Ideal.hostDivf_def, Ideal.ofBits_def]

end Cert.Combo.Ref

end
-- ==== Proof.RefValue.lean ====
/-
  The reference's result as a function of the rows of its arguments: the two parts, each times one, added.
-/
import proofs.«409958_j6382321402277_3_alg».proof.Proof.RefLp
import proofs.«409958_j6382321402277_3_alg».proof.Proof.RefBce

noncomputable section

namespace Cert.Combo.Ref

open Idealize.ShloMosaic Idealize.ShloMosaic.ValueIdx Cert.ReferenceIdeal Cert.ReferenceIdeal.ReadP Cert.Combo

/-- When both position vectors name lanes the reference's result is `refTotal` of the rows. -/
theorem ref_value (x0 x1 : (⟨S256x8192x1, .f32⟩ : BufTy).Contents (Elt Ideal)) (x2 x3 : (⟨S256, .i32⟩ : BufTy).Contents (Elt Ideal)) (x4 : (⟨S256x8192x1, .f32⟩ : BufTy).Contents (Elt Ideal)) (x5 : (⟨S256x8192, .f32⟩ : BufTy).Contents (Elt Ideal))
    (h2 : ∀ b, (word1 x2 b).toNat < 8192) (h3 : ∀ b, (word1 x3 b).toNat < 8192) :
    val_main_v31 (F := Ideal) x0 x1 x2 x3 x4 x5
      = fun _ => refTotal (fun b => lpR (rows3 x0 b) (word1 x2 b) + lpR (rows3 x1 b) (word1 x3 b))
          (fun b k => bce (rows3 x4 b k) (rows2 x5 b k)) := by
  funext i
  rw [val_main_v31_apply, val_main_v29_apply, val_main_v30_apply, val_main_cst_7_apply, val_main_cst_8_apply,
    ref_lp x0 x1 x2 x3 h2 h3 i, ref_bce x4 x5 i]
  rfl

end Cert.Combo.Ref

end
-- ==== Proof.Algebra.lean ====
/-
  The laws that join the kernel's arrangement of the loss to the reference's.
-/
import proofs.«409958_j6382321402277_3_alg».proof.Proof.Spec

noncomputable section

namespace Cert.Combo

open Idealize.ShloMosaic

/-! ## The float words as numbers -/

/-- The word of 0 denotes 0. -/
private theorem wZero_eq : wZero = 0 := Ideal.ofBits_zero_f32

/-- The word of 1 denotes 1. -/
private theorem wOne_eq : wOne = 1 := by
  simp [wOne, Ideal.ofBits, Ideal.ieee, -EReal.coe_mul]; norm_num

/-- The word of 8192 denotes the real 8192. -/
private theorem wS_eq : wS = ((8192 : ℝ) : EReal) := by
  simp [wS, Ideal.ofBits, Ideal.ieee, -EReal.coe_mul]; norm_num

/-- The word of 256 denotes the real 256. -/
private theorem wB_eq : wB = ((256 : ℝ) : EReal) := by
  simp [wB, Ideal.ofBits, Ideal.ieee, -EReal.coe_mul]; norm_num

/-- The word of 2⁻¹³ denotes the real 1/8192. -/
private theorem wInvS_eq : wInvS = ((1 / 8192 : ℝ) : EReal) := by
  simp [wInvS, Ideal.ofBits, Ideal.ieee, -EReal.coe_mul]; norm_num

/-- The word of 2⁻⁸ denotes the real 1/256. -/
private theorem wInvB_eq : wInvB = ((1 / 256 : ℝ) : EReal) := by
  simp [wInvB, Ideal.ofBits, Ideal.ieee, -EReal.coe_mul]; norm_num

/-! ## Sums -/

/-- The coercion of a finite sum of reals is the sum of the coercions. -/
private theorem coe_sum {ι : Type} (s : Finset ι) (h : ι → ℝ) :
    ((∑ i ∈ s, h i : ℝ) : EReal) = ∑ i ∈ s, (h i : EReal) := by
  classical
  induction s using Finset.induction_on with
  | empty => simp
  | insert a s ha ih => rw [Finset.sum_insert ha, Finset.sum_insert ha, EReal.coe_add, ih]

/-- A sum over the 256 batch rows is the sum over the four tiles of the sums over a tile's 64 rows:
    (t, r) ↦ 64 t + r is a bijection of the pairs onto the rows. -/
private theorem sum_tiles {M : Type} [AddCommMonoid M] (f : Fin 256 → M) :
    ∑ b, f b = ∑ t : Fin 4, ∑ r : Fin 64, f (row t r) := by
  rw [← Fintype.sum_prod_type']
  refine (Fintype.sum_equiv (finProdFinEquiv : Fin 4 × Fin 64 ≃ Fin 256) _ _ ?_).symm
  rintro ⟨t, r⟩
  congr 1
  apply Fin.ext
  simp [row, finProdFinEquiv]
  omega

/-- The four tiles taken in order from 0 make the sum over the batch. -/
private theorem four_tiles {M : Type} [AddCommMonoid M] (f : Fin 256 → M) :
    ((((0 + ∑ r : Fin 64, f (row 0 r)) + ∑ r : Fin 64, f (row 1 r)) + ∑ r : Fin 64, f (row 2 r))
      + ∑ r : Fin 64, f (row 3 r)) = ∑ b, f b := by
  rw [sum_tiles, Fin.sum_univ_four, zero_add]

/-- A position word that names a lane picks that lane's entry: exactly one lane's number equals the word. -/
theorem pickK_eq_rowAt (x : Fin 8192 → EReal) (p : BitVec 32) (h : p.toNat < 8192) : pickK x p = rowAt x p.toNat := by
  unfold pickK rowAt
  rw [dif_pos h, Finset.sum_eq_single (⟨p.toNat, h⟩ : Fin 8192)]
  · simp
  · intro k _ hk
    rw [if_neg, wZero_eq]
    intro hEq
    apply hk
    apply Fin.ext
    have h2 := congrArg BitVec.toNat hEq
    have hk' := k.isLt
    simp only [BitVec.toNat_ofNat] at h2
    show k.val = p.toNat
    omega
  · intro hmem
    exact absurd (Finset.mem_univ _) hmem

/-- So the two log-probabilities agree at a position word that names a lane. -/
theorem lpK_eq_lpR (x : Fin 8192 → EReal) (p : BitVec 32) (h : p.toNat < 8192) : lpK x p = lpR x p := by
  unfold lpK lpR; rw [pickK_eq_rowAt x p h]

/-- With the probability strictly between 0 and 1 and a finite tag, a token's term is a real number. -/
theorem bce_real (p t : EReal) (hp0 : 0 < p) (hp1 : p < 1) (ht : ∃ r : ℝ, t = (r : EReal)) :
    ∃ r : ℝ, bce p t = (r : EReal) := by
  obtain ⟨r, rfl⟩ := ht
  induction p using EReal.rec with
  | bot => exact absurd hp0 (by simp)
  | top => exact absurd hp1 (by simp)
  | coe q =>
    have hq0 : 0 < q := by exact_mod_cast hp0
    have hq1 : q < 1 := by exact_mod_cast hp1
    refine ⟨r * Real.log q + (1 - r) * Real.log (1 - q), ?_⟩
    have h1 : (1 : EReal) - (q : EReal) = ((1 - q : ℝ) : EReal) := by
      rw [EReal.coe_sub, EReal.coe_one]
    have h2 : (1 : EReal) - (r : EReal) = ((1 - r : ℝ) : EReal) := by
      rw [EReal.coe_sub, EReal.coe_one]
    unfold bce
    rw [wOne_eq, h1, h2, Ideal.log_coe, Ideal.log_coe, if_neg (not_le.mpr hq0),
      if_neg (not_le.mpr (by linarith)), EReal.coe_add, EReal.coe_mul, EReal.coe_mul]

/-- The two totals agree when the per-row values agree and every token's term is a real number. -/
theorem total_eq (f f' : Fin 256 → EReal) (g : Fin 256 → Fin 8192 → EReal) (hf : ∀ b, f b = f' b)
    (hg : ∀ b k, ∃ r : ℝ, g b k = (r : EReal)) : kernelTotal f g = refTotal f' g := by
  obtain rfl : f = f' := funext hf
  choose r hr using hg
  obtain rfl : g = fun b k => (r b k : EReal) := funext fun b => funext fun k => hr b k
  unfold kernelTotal refTotal
  -- The first part: the four tiles' sums of the per-row values make the batch's sum.
  have hA : ((((wZero + tileLp f 0) + tileLp f 1) + tileLp f 2) + tileLp f 3) = wZero + ∑ b, f b := by
    rw [wZero_eq]; unfold tileLp; rw [four_tiles, zero_add]
  -- The second part on the kernel's side: a tile's value is a real number.
  have hT : ∀ t, tileBce (fun b k => (r b k : EReal)) t
      = (((∑ r' : Fin 64, ∑ k : Fin 8192, -(r (row t r') k)) * (1 / 8192) : ℝ) : EReal) := by
    intro t
    unfold tileBce
    rw [wZero_eq, wInvS_eq]
    simp only [zero_sub, ← EReal.coe_neg, ← coe_sum, ← EReal.coe_mul]
  -- The second part on the reference's side: a row's value is a real number.
  have hR : ∀ b, Ideal.div (-(wZero + ∑ k : Fin 8192, (r b k : EReal))) wS
      = (((-(∑ k : Fin 8192, r b k)) * (1 / 8192) : ℝ) : EReal) := by
    intro b
    rw [wZero_eq, wS_eq, zero_add, Ideal.div_coe (by norm_num), ← coe_sum, ← EReal.coe_neg, ← EReal.coe_mul]
  rw [hA]
  simp only [hT, hR]
  rw [wOne_eq, one_mul, one_mul, wZero_eq, wInvB_eq, wB_eq, Ideal.div_coe (by norm_num)]
  refine congrArg₂ (fun x y : EReal => x + y) rfl ?_
  rw [zero_add, zero_add, ← coe_sum, ← EReal.coe_add, ← EReal.coe_add, ← EReal.coe_add, ← EReal.coe_mul,
    ← EReal.coe_mul, EReal.coe_eq_coe_iff]
  -- An identity of real numbers: regroup the batch into tiles and take the sign out of each sum.
  rw [sum_tiles (fun b => (-(∑ k : Fin 8192, r b k)) * (1 / 8192 : ℝ)), Fin.sum_univ_four]
  simp only [Finset.sum_neg_distrib, ← Finset.sum_mul]
  ring

end Cert.Combo

end
-- ==== Proof.PreFacts.lean ====
/-
  What the precondition says of the arguments, entry by entry.
-/
import proofs.«409958_j6382321402277_3_alg».proof.Pre_finite_inputs
import proofs.«409958_j6382321402277_3_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.Combo

open Idealize.ShloMosaic Cert.Pre_finite_inputs

/-- The rank-0 shape has one index. -/
private instance subsingleton_S_ : Subsingleton S_.Idx := ⟨fun a b => funext fun d => d.elim0⟩

/-- The f32 pattern of +∞ is the top extended real. -/
theorem ofBits_inf_f32 : Ideal.ofBits .f32 0x7F800000#32 = ⊤ := by
  simp [Ideal.ofBits, Ideal.ieee]

/-- The f32 pattern of 1.0 is the extended real 1. -/
theorem ofBits_one_f32 : Ideal.ofBits .f32 0x3F800000#32 = 1 := by
  simp [Ideal.ofBits, Ideal.ieee, -EReal.coe_mul]
  norm_num

/-- A 32-bit word that is nonnegative and below 8192 read signed is below 8192 read unsigned. -/
private theorem toNat_lt_of_signed (w : BitVec 32) (h0 : IntOp.cmpi .sge w 0#32 = 1#1)
    (h1 : IntOp.cmpi .slt w 8192#32 = 1#1) : w.toNat < 8192 := by
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  have hc := BitVec.toInt_eq_toNat_cond w
  split at hc <;> omega

/-- An ordered "less than" on the extended reals that holds is the strict order. -/
private theorem cmp_olt_iff (x y : EReal) : Ideal.cmp .olt x y = 1#1 ↔ x < y := by
  simp only [Ideal.cmp, StableHlo.Predicate.ofBool_eq_one_iff, decide_eq_true_eq]

/-- An ordered "greater than" that holds is the strict order reversed. -/
private theorem cmp_ogt_iff (x y : EReal) : Ideal.cmp .ogt x y = 1#1 ↔ y < x := by
  simp only [Ideal.cmp, StableHlo.Predicate.ofBool_eq_one_iff, decide_eq_true_eq]

/-- An extended real whose absolute value max x (-x) is below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- The precondition's value split into the seven conjuncts the facts below rest on, each read at an index: the
    finiteness test of the tags, the two range tests of each position vector, and the two range tests of the
    probabilities. -/
private theorem pre_conjuncts [Cert.Pre_finite_inputs.Facts] (a0 a1 : FVec Ideal S256x8192x1 .f32) (a2 a3 : IVec S256 32)
    (a4 : FVec Ideal S256x8192x1 .f32) (a5 : FVec Ideal S256x8192 .f32)
    (h : Cert.Pre_finite_inputs.fn (F := Ideal) a0 a1 a2 a3 a4 a5 = fun _ => 1#1) :
    (∀ i, Ideal.cmp .olt (max (a5 i) (-(a5 i))) (Ideal.ofBits .f32 0x7F800000#32) = 1#1)
      ∧ (∀ i, IntOp.cmpi .sge (a2 i) 0#32 = 1#1) ∧ (∀ i, IntOp.cmpi .slt (a2 i) 8192#32 = 1#1)
      ∧ (∀ i, IntOp.cmpi .sge (a3 i) 0#32 = 1#1) ∧ (∀ i, IntOp.cmpi .slt (a3 i) 8192#32 = 1#1)
      ∧ (∀ i, Ideal.cmp .ogt (a4 i) (Ideal.ofBits .f32 0x00000000#32) = 1#1)
      ∧ (∀ i, Ideal.cmp .olt (a4 i) (Ideal.ofBits .f32 0x3F800000#32) = 1#1) := by
  have e := congrFun h ValueIdx.ix0
  unfold Cert.Pre_finite_inputs.fn Cert.Pre_finite_inputs.fn_part1 Cert.Pre_finite_inputs.fn_part2 at e
  simp only [andi, IntOp.andi_eq_one] at e
  obtain ⟨⟨⟨⟨⟨⟨⟨⟨⟨-, -⟩, -⟩, h17⟩, h21⟩, h25⟩, h29⟩, h33⟩, h37⟩, h41⟩ := e
  refine ⟨fun i => ?_, fun i => ?_, fun i => ?_, fun i => ?_, fun i => ?_, fun i => ?_, fun i => ?_⟩
  · exact Host.reduce_andi_all _ _ _ _ _ h17 i
  · exact Host.reduce_andi_all _ _ _ _ _ h21 i
  · exact Host.reduce_andi_all _ _ _ _ _ h25 i
  · exact Host.reduce_andi_all _ _ _ _ _ h29 i
  · exact Host.reduce_andi_all _ _ _ _ _ h33 i
  · exact Host.reduce_andi_all _ _ _ _ _ h37 i
  · exact Host.reduce_andi_all _ _ _ _ _ h41 i

/-- Under the precondition both position vectors name lanes, every probability lies strictly between 0 and 1, and
    every tag is a real number. -/
theorem pre_facts [Cert.Pre_finite_inputs.Facts] (a0 a1 : FVec Ideal S256x8192x1 .f32) (a2 a3 : IVec S256 32)
    (a4 : FVec Ideal S256x8192x1 .f32) (a5 : FVec Ideal S256x8192 .f32)
    (h : Cert.Pre_finite_inputs.fn (F := Ideal) a0 a1 a2 a3 a4 a5 = fun _ => 1#1) :
    (∀ i, (a2 i).toNat < 8192) ∧ (∀ i, (a3 i).toNat < 8192) ∧ (∀ i, (0 : EReal) < a4 i ∧ a4 i < (1 : EReal))
      ∧ (∀ i, ∃ r : ℝ, a5 i = (r : EReal)) := by
  obtain ⟨h5, h2a, h2b, h3a, h3b, h4a, h4b⟩ := pre_conjuncts a0 a1 a2 a3 a4 a5 h
  refine ⟨fun i => toNat_lt_of_signed _ (h2a i) (h2b i), fun i => toNat_lt_of_signed _ (h3a i) (h3b i), fun i => ⟨?_, ?_⟩, fun i => ?_⟩
  · have := (cmp_ogt_iff _ _).1 (h4a i)
    rwa [Ideal.ofBits_zero_f32] at this
  · have := (cmp_olt_iff _ _).1 (h4b i)
    rwa [ofBits_one_f32] at this
  · have := (cmp_olt_iff _ _).1 (h5 i)
    rw [ofBits_inf_f32] at this
    exact real_of_abs_lt_top _ this

end Cert.Combo

end
-- ==== Proof.lean ====
/-
  The certificate's claims for the combined loss kernel (log-softmax negative log-likelihood of start and end logits at
  the gold positions, plus the per-token binary cross-entropy averaged over tokens and batch) against its reference.

  The precondition, beside finiteness of the float inputs, asks that both position vectors name lanes (0 ≤ p < 8192)
  and that every probability lies strictly between 0 and 1. Under it every token's cross-entropy term is a real
  number, the kernel's one-hot lane pick is the reference's indexed pick, and the kernel's tile-by-tile running sums
  are the reference's sums over the batch: regrouping a finite sum, taking the sign out of a sum of reals, and a
  division by 8192 or 256 being the product with 1/8192 or 1/256.

  The three frames are the generated ones (the reference's is its run with the result dropped); the idealization
  rewrote nothing, so preservation is trivial; the equivalence puts the kernel's run and the reference's run side by
  side at one value.
-/
import proofs.«409958_j6382321402277_3_alg».proof.Defs
import proofs.«409958_j6382321402277_3_alg».proof.Proof.Gen.Kernel
import proofs.«409958_j6382321402277_3_alg».proof.Proof.Gen.Kernel.Frame
import proofs.«409958_j6382321402277_3_alg».proof.Proof.Gen.KernelIdeal
import proofs.«409958_j6382321402277_3_alg».proof.Proof.Gen.KernelIdeal.Frame
import proofs.«409958_j6382321402277_3_alg».proof.Proof.Gen.ReferenceIdeal
import proofs.«409958_j6382321402277_3_alg».proof.Proof.Gen.Pre_finite_inputs
import proofs.«409958_j6382321402277_3_alg».proof.Proof.KernelFinal
import proofs.«409958_j6382321402277_3_alg».proof.Proof.RefRun
import proofs.«409958_j6382321402277_3_alg».proof.Proof.RefValue
import proofs.«409958_j6382321402277_3_alg».proof.Proof.Algebra
import proofs.«409958_j6382321402277_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx Cert.Combo

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- Both programs end at one value: the kernel's total over the arguments, which under the precondition is the
    reference's. -/
theorem algebraic : Cert.algebraic_KernelIdeal_ReferenceIdeal := by
  intro m ρ m' ρ' hpre hagree
  refine ⟨fun c => fun _ => kernelTotal (Cert.KernelIdeal.KV.fK m c) (Cert.KernelIdeal.KV.gK m c), Cert.KernelIdeal.KV.run m ρ, ?_⟩
  refine (θ_run Cert.ReferenceIdeal.defs _ _).mono (fun _ h c => ⟨(h c).1.trans ?_, (h c).2⟩)
    (Cert.ReferenceIdeal.RunP.run (F := Ideal) m' ρ')
  obtain ⟨h2, h3, h4, h5⟩ := pre_facts _ _ _ _ _ _ (hpre c)
  rw [(hagree c).1, (hagree c).2.1, (hagree c).2.2.1, (hagree c).2.2.2.1, (hagree c).2.2.2.2.1, (hagree c).2.2.2.2.2]
  rw [Cert.Combo.Ref.ref_value _ _ _ _ _ _ (fun b => h2 (ix1 b)) (fun b => h3 (ix1 b))]
  funext _
  refine (total_eq _ _ _ (fun b => ?_) (fun b k => ?_)).symm
  · exact congrArg₂ (fun x y : EReal => x + y) (lpK_eq_lpR _ _ (h2 (ix1 b))) (lpK_eq_lpR _ _ (h3 (ix1 b)))
  · exact bce_real _ _ (h4 (ix3 b k (0 : Fin 1))).1 (h4 (ix3 b k (0 : Fin 1))).2 (h5 (ix2 b k))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
